-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S800000 : Shape := ⟨1, ![800000]⟩
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64x128 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128 .f32) (main_arg10 : FVec F S128x128 .f32) (main_arg11 : FVec F S128 .f32) (main_arg12 : FVec F S128 .f32) (main_arg13 : FVec F S64x128 .f32) (main_arg14 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128x128 .f32) (main_arg11 : FVec F S128 .f32) (main_arg12 : FVec F S128 .f32) (main_arg13 : FVec F S64x128 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S2x800000 32) (main_arg1 : FVec F S800000 .f32) (main_arg2 : FVec F S50000x128 .f32) (main_arg3 : IVec S50000x128 1) (main_arg4 : FVec F S128x128 .f32) (main_arg5 : FVec F S128 .f32) (main_arg6 : FVec F S128 .f32) (main_arg7 : FVec F S128x128 .f32) (main_arg8 : FVec F S128 .f32) (main_arg9 : FVec F S128 .f32) (main_arg10 : FVec F S128x128 .f32) (main_arg11 : FVec F S128 .f32) (main_arg12 : FVec F S128 .f32) (main_arg13 : FVec F S64x128 .f32) (main_arg14 : FVec F S64 .f32) : IVec S_ 1 :=
  let main_v0 : FVec F S800000 .f32 := Host.absf main_arg1
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S2x800000 : Shape := ⟨2, ![2, 800000]⟩
abbrev S800000 : Shape := ⟨1, ![800000]⟩
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S10000x128 : Shape := ⟨2, ![10000, 128]⟩
abbrev S1x128 : Shape := ⟨2, ![1, 128]⟩
abbrev S50000x64 : Shape := ⟨2, ![50000, 64]⟩

abbrev nBuf : Space → Nat
  | .hbm => 126
  | .vmem => 31
  | .smem => 0
  | _ => 0

abbrev bufTy : (tb : Table) → Fin (tcTables nBuf tb) → BufTy
  | .hbm, ⟨0, _⟩ => ⟨S2x800000, .i32⟩
  | .hbm, ⟨1, _⟩ => ⟨S800000, .f32⟩
  | .hbm, ⟨2, _⟩ => ⟨S50000x128, .f32⟩
  | .hbm, ⟨3, _⟩ => ⟨S50000x128, .i1⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S64x128, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000, .f32⟩
  | .hbm, ⟨61, _⟩ => ⟨S800000, .f32⟩
  | .hbm, ⟨62, _⟩ => ⟨S_, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S800000x1, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x128, .i32⟩
  | .hbm, ⟨83, _⟩ => ⟨S50000x128, .f32⟩
  | .hbm, ⟨84, _⟩ => ⟨S800000x1, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S800000x128, .f32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S50000x128, .i32⟩
  | .hbm, ⟨101, _⟩ => ⟨S50000x128, .f32⟩
  | .hbm, ⟨102, _⟩ => ⟨S800000x1, .f32⟩
  | .hbm, ⟨103, _⟩ => ⟨S_, .i32⟩
  | .hbm, ⟨104, _⟩ => ⟨S800000, .i32⟩
  | .hbm, ⟨105, _⟩ => ⟨S800000, .i1⟩
  | .hbm, ⟨106, _⟩ => ⟨S_, .i32⟩
  | .hbm, ⟨107, _⟩ => ⟨S800000, .i32⟩
  | .hbm, ⟨108, _⟩ => ⟨S800000, .i32⟩
  | .hbm, ⟨109, _⟩ => ⟨S800000, .i32⟩
  | .hbm, ⟨110, _⟩ => ⟨S800000x1, .i32⟩
  | .hbm, ⟨111, _⟩ => ⟨S800000x128, .f32⟩
  | .hbm, ⟨112, _⟩ => ⟨S800000x128, .f32⟩
  | .hbm, ⟨113, _⟩ => ⟨S800000x128, .f32⟩
  | .hbm, ⟨114, _⟩ => ⟨S_, .f32⟩
  | .hbm, ⟨115, _⟩ => ⟨S50000x128, .f32⟩
  | .hbm, ⟨116, _⟩ => ⟨S800000x1, .i32⟩
  | .hbm, ⟨117, _⟩ => ⟨S50000x128, .f32⟩
  | .hbm, ⟨118, _⟩ => ⟨S_, .i32⟩
  | .hbm, ⟨119, _⟩ => ⟨S_, .f32⟩
  | .hbm, ⟨120, _⟩ => ⟨S128x128, .f32⟩
  | .hbm, ⟨121, _⟩ => ⟨S_, .i32⟩
  | .hbm, ⟨122, _⟩ => ⟨S_, .f32⟩
  | .hbm, ⟨123, _⟩ => ⟨S128, .f32⟩
  | .hbm, ⟨124, _⟩ => ⟨S50000x128, .f32⟩
  | .hbm, ⟨125, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S128, .f32⟩
  | .local _ .vmem, ⟨5, _⟩ => ⟨S10000x128, .f32⟩
  | .local _ .vmem, ⟨6, _⟩ => ⟨S10000x128, .f32⟩
  | .local _ .vmem, ⟨7, _⟩ => ⟨S10000x128, .i32⟩
  | .local _ .vmem, ⟨8, _⟩ => ⟨S10000x128, .i32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S128, .f32⟩
  | .local _ .vmem, ⟨15, _⟩ => ⟨S128, .f32⟩
  | .local _ .vmem, ⟨16, _⟩ => ⟨S10000x128, .f32⟩
  | .local _ .vmem, ⟨17, _⟩ => ⟨S10000x128, .f32⟩
  | .local _ .vmem, ⟨18, _⟩ => ⟨S10000x128, .i32⟩
  | .local _ .vmem, ⟨19, _⟩ => ⟨S10000x128, .i32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S128, .f32⟩
  | .local _ .vmem, ⟨26, _⟩ => ⟨S128, .f32⟩
  | .local _ .vmem, ⟨27, _⟩ => ⟨S128x128, .f32⟩
  | .local _ .vmem, ⟨28, _⟩ => ⟨S128, .f32⟩
  | .local _ .vmem, ⟨29, _⟩ => ⟨S10000x128, .f32⟩
  | .local _ .vmem, ⟨30, _⟩ => ⟨S10000x128, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_7 : Ref sig .tc := ⟨.hbm, 52, rfl⟩
abbrev main_v24 : Ref sig .tc := ⟨.hbm, 53, rfl⟩
abbrev main_v25 : Ref sig .tc := ⟨.hbm, 54, rfl⟩
abbrev main_c_8 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_9 : Ref sig .tc := ⟨.hbm, 62, rfl⟩
abbrev main_call2_v0 : Ref sig .tc := ⟨.hbm, 63, rfl⟩
abbrev main_call2_v1 : Ref sig .tc := ⟨.hbm, 64, rfl⟩
abbrev main_v32 : Ref sig .tc := ⟨.hbm, 65, rfl⟩
abbrev main_v33 : Ref sig .tc := ⟨.hbm, 66, rfl⟩
abbrev main_c_10 : Ref sig .tc := ⟨.hbm, 67, rfl⟩
abbrev main_v34 : Ref sig .tc := ⟨.hbm, 68, rfl⟩
abbrev main_v35 : Ref sig .tc := ⟨.hbm, 69, rfl⟩
abbrev main_c_11 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_12 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_13 : Ref sig .tc := ⟨.hbm, 85, rfl⟩
abbrev main_v49 : Ref sig .tc := ⟨.hbm, 86, rfl⟩
abbrev main_v50 : Ref sig .tc := ⟨.hbm, 87, rfl⟩
abbrev main_c_14 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_15 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_16 : Ref sig .tc := ⟨.hbm, 103, rfl⟩
abbrev main_v64 : Ref sig .tc := ⟨.hbm, 104, rfl⟩
abbrev main_v65 : Ref sig .tc := ⟨.hbm, 105, rfl⟩
abbrev main_c_17 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_18 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_19 : Ref sig .tc := ⟨.hbm, 118, rfl⟩
abbrev main_call3_v0 : Ref sig .tc := ⟨.hbm, 119, rfl⟩
abbrev main_v76 : Ref sig .tc := ⟨.hbm, 120, rfl⟩
abbrev main_c_20 : Ref sig .tc := ⟨.hbm, 121, rfl⟩
abbrev main_call4_v0 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x128 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  natLt_1_32 : 1 < 32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  pads_S64x128_S128x128_0640_000 : S64x128.Pads (![0, 0] : Fin 2 → Nat) ![64, 0] ![0, 0] S128x128
  h_S_ : 0 < S_.numel
  pads_S64_S128_0640 : S64.Pads (![0] : Fin 1 → Nat) ![64] ![0] S128
  shapeCasts_S128x128_S128x128 : S128x128.ShapeCasts S128x128
  shapeCasts_S128_S128 : S128.ShapeCasts S128
  slices_S50000x128_S50000x64_0_0 : S50000x128.Slices ![0, 0] S50000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S50000x128.size a
  hwx0_4 : ∀ i : grid0.Coords, EltTy.bits .f32 = 32 ∨ (Rect.block (s := S50000x128) S10000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .i32 = 32 ∨ (Rect.block (s := S50000x128) S10000x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S50000x128.size a
  hwx1_4 : ∀ i : grid1.Coords, EltTy.bits .f32 = 32 ∨ (Rect.block (s := S50000x128) S10000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .i32 = 32 ∨ (Rect.block (s := S50000x128) S10000x128.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S50000x128.size a
  hwx2_6 : ∀ i : grid2.Coords, EltTy.bits .f32 = 32 ∨ (Rect.block (s := S50000x128) S10000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v45) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S10000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v46) S10000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v47) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v60) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S10000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v61) S10000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v62) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v75) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S2x800000 : Shape := ⟨2, ![2, 800000]⟩
abbrev S800000 : Shape := ⟨1, ![800000]⟩
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 154
  | .vmem => 0
  | .smem => 0
  | _ => 0

abbrev hbmTy0_0 (i : Nat) : BufTy := match i % 128 with
  | 0 => ⟨S2x800000, .i32⟩
  | 1 => ⟨S800000, .f32⟩
  | 2 => ⟨S50000x128, .f32⟩
  | 3 => ⟨S50000x128, .i1⟩
  | 4 => ⟨S128x128, .f32⟩
  | 5 => ⟨S128, .f32⟩
  | 6 => ⟨S128, .f32⟩
  | 7 => ⟨S128x128, .f32⟩
  | 8 => ⟨S128, .f32⟩
  | 9 => ⟨S128, .f32⟩
  | 10 => ⟨S128x128, .f32⟩
  | 11 => ⟨S128, .f32⟩
  | 12 => ⟨S128, .f32⟩
  | 13 => ⟨S64x128, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .f32⟩
  | 63 => ⟨S_, .f32⟩
  | 64 => ⟨S50000x128, .f32⟩
  | 65 => ⟨S50000x128, .f32⟩
  | 66 => ⟨S800000x1, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S128x128, .f32⟩
  | 83 => ⟨S50000x128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S800000x1, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S128x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S800000x1, .f32⟩
  | 123 => ⟨S_, .i32⟩
  | 124 => ⟨S800000, .i32⟩
  | 125 => ⟨S800000, .i1⟩
  | 126 => ⟨S_, .i32⟩
  | 127 => ⟨S800000, .i32⟩
  | _ => ⟨S2x800000, .i32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S800000x128, .f32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S128x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S128x64, .f32⟩
  | 22 => ⟨S50000x64, .f32⟩
  | 23 => ⟨S1x64, .f32⟩
  | 24 => ⟨S50000x64, .f32⟩
  | 25 => ⟨S50000x64, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_7 : Ref sig .tc := ⟨.hbm, 52, rfl⟩
abbrev main_v24 : Ref sig .tc := ⟨.hbm, 53, rfl⟩
abbrev main_v25 : Ref sig .tc := ⟨.hbm, 54, rfl⟩
abbrev main_c_8 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_9 : Ref sig .tc := ⟨.hbm, 62, rfl⟩
abbrev main_call2_v0 : Ref sig .tc := ⟨.hbm, 63, rfl⟩
abbrev main_call2_v1 : Ref sig .tc := ⟨.hbm, 64, rfl⟩
abbrev main_v32 : Ref sig .tc := ⟨.hbm, 65, rfl⟩
abbrev main_v33 : Ref sig .tc := ⟨.hbm, 66, rfl⟩
abbrev main_c_10 : Ref sig .tc := ⟨.hbm, 67, rfl⟩
abbrev main_v34 : Ref sig .tc := ⟨.hbm, 68, rfl⟩
abbrev main_v35 : Ref sig .tc := ⟨.hbm, 69, rfl⟩
abbrev main_c_11 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_12 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call3_cst : Ref sig .tc := ⟨.hbm, 90, rfl⟩
abbrev main_call3_v0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_13 : Ref sig .tc := ⟨.hbm, 95, rfl⟩
abbrev main_v57 : Ref sig .tc := ⟨.hbm, 96, rfl⟩
abbrev main_v58 : Ref sig .tc := ⟨.hbm, 97, rfl⟩
abbrev main_c_14 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_15 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call5_cst : Ref sig .tc := ⟨.hbm, 118, rfl⟩
abbrev main_call5_v0 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_16 : Ref sig .tc := ⟨.hbm, 123, rfl⟩
abbrev main_v80 : Ref sig .tc := ⟨.hbm, 124, rfl⟩
abbrev main_v81 : Ref sig .tc := ⟨.hbm, 125, rfl⟩
abbrev main_c_17 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_18 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call7_cst : Ref sig .tc := ⟨.hbm, 146, rfl⟩
abbrev main_call7_v0 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RefStages.lean ====
/-
  The reference's stages, regrouped into the three functions its layers repeat: the neighbourhood aggregate of a feature
  array (gather the source rows, scale each edge by its normalisation, add into the destination rows), a hidden layer of an
  aggregate, and the last layer of an aggregate. Each regrouping is the stage's own definition unfolded, at any float family.
-/
import proofs.«430065_j90254442758730_3_alg».proof.Proof.RefRead

noncomputable section

namespace Cert.ReferenceIdeal.Layers

open Idealize.ShloMosaic Idealize.ShloMosaic.TcCoe Idealize.SL.Sem
open Cert.ReferenceIdeal Cert.ReferenceIdeal.ReadP

section AnyFloat

variable {F : FTy → Type} [FloatOps F]

/-- The aggregate of a feature array `xt` over the edges `x0`: row `col e` receives `norm e · xt[row e]` for every edge. -/
def agg (x0 : (⟨S2x800000, .i32⟩ : BufTy).Contents (Elt F)) (xt : (⟨S50000x128, .f32⟩ : BufTy).Contents (Elt F)) : (⟨S50000x128, .f32⟩ : BufTy).Contents (Elt F) :=
  Host.scatterAdd scatter_S50000x128_S800000x1_S800000x128_1_0_0_1 (val_main_v43 (F := F)) (val_main_v44 (F := F) x0)
    (mulf (val_main_v41 (F := F) x0) (Host.gather gather_S50000x128_S800000x1_S800000x128_1_0_n_n_0_1_1128 xt (val_main_v39 (F := F) x0)))

/-- A hidden layer of an aggregate `a`: the product with the transposed weight, the two bias rows, the maximum with zero,
    and the input feature kept where the mask holds. -/
def hid (a : (⟨S50000x128, .f32⟩ : BufTy).Contents (Elt F)) (x2 : (⟨S50000x128, .f32⟩ : BufTy).Contents (Elt F)) (x3 : (⟨S50000x128, .i1⟩ : BufTy).Contents (Elt F)) (x4 : (⟨S128x128, .f32⟩ : BufTy).Contents (Elt F)) (x5 x6 : (⟨S128, .f32⟩ : BufTy).Contents (Elt F)) : (⟨S50000x128, .f32⟩ : BufTy).Contents (Elt F) :=
  select x3 x2 (maximumf (addf (addf (Host.dotGeneral dot_S50000x128_S128x128_S50000x128_1_0_0_1_n_n none a (val_main_v46 (F := F) x4))
    (val_main_v49 (F := F) x5)) (val_main_v52 (F := F) x6)) (val_main_call3_v0 (F := F)))

/-- The last layer of an aggregate `a`: the same affine map and maximum, then the product with the transposed output weight
    plus the output bias. -/
def fin (a : (⟨S50000x128, .f32⟩ : BufTy).Contents (Elt F)) (x10 : (⟨S128x128, .f32⟩ : BufTy).Contents (Elt F)) (x11 x12 : (⟨S128, .f32⟩ : BufTy).Contents (Elt F)) (x13 : (⟨S64x128, .f32⟩ : BufTy).Contents (Elt F)) (x14 : (⟨S64, .f32⟩ : BufTy).Contents (Elt F)) : (⟨S50000x64, .f32⟩ : BufTy).Contents (Elt F) :=
  addf (Host.dotGeneral dot_S50000x128_S128x64_S50000x64_1_0_0_1_n_n none
      (maximumf (addf (addf (Host.dotGeneral dot_S50000x128_S128x128_S50000x128_1_0_0_1_n_n none a (val_main_v92 (F := F) x10))
        (val_main_v95 (F := F) x11)) (val_main_v98 (F := F) x12)) (val_main_call7_v0 (F := F)))
      (val_main_v101 (F := F) x13))
    (val_main_v104 (F := F) x14)

variable (x0 : (⟨S2x800000, .i32⟩ : BufTy).Contents (Elt F)) (x2 : (⟨S50000x128, .f32⟩ : BufTy).Contents (Elt F)) (x3 : (⟨S50000x128, .i1⟩ : BufTy).Contents (Elt F)) (x4 : (⟨S128x128, .f32⟩ : BufTy).Contents (Elt F)) (x5 x6 : (⟨S128, .f32⟩ : BufTy).Contents (Elt F)) (x7 : (⟨S128x128, .f32⟩ : BufTy).Contents (Elt F)) (x8 x9 : (⟨S128, .f32⟩ : BufTy).Contents (Elt F)) (x10 : (⟨S128x128, .f32⟩ : BufTy).Contents (Elt F)) (x11 x12 : (⟨S128, .f32⟩ : BufTy).Contents (Elt F)) (x13 : (⟨S64x128, .f32⟩ : BufTy).Contents (Elt F)) (x14 : (⟨S64, .f32⟩ : BufTy).Contents (Elt F))

/-- The first aggregate is the aggregate of the masked input. -/
theorem v45_eq : val_main_v45 (F := F) x0 x2 x3 = agg x0 (val_main_v32 (F := F) x2 x3) := rfl
/-- The first hidden layer. -/
theorem v55_eq : val_main_v55 (F := F) x0 x2 x3 x4 x5 x6 = hid (val_main_v45 (F := F) x0 x2 x3) x2 x3 x4 x5 x6 := rfl
/-- The second aggregate is the aggregate of the first hidden layer. -/
theorem v68_eq : val_main_v68 (F := F) x0 x2 x3 x4 x5 x6 = agg x0 (val_main_v55 (F := F) x0 x2 x3 x4 x5 x6) := rfl
/-- The second hidden layer. -/
theorem v78_eq : val_main_v78 (F := F) x0 x2 x3 x4 x5 x6 x7 x8 x9 = hid (val_main_v68 (F := F) x0 x2 x3 x4 x5 x6) x2 x3 x7 x8 x9 := rfl
/-- The third aggregate is the aggregate of the second hidden layer. -/
theorem v91_eq : val_main_v91 (F := F) x0 x2 x3 x4 x5 x6 x7 x8 x9 = agg x0 (val_main_v78 (F := F) x0 x2 x3 x4 x5 x6 x7 x8 x9) := rfl
/-- The result is the last layer of the third aggregate. -/
theorem v105_eq : val_main_v105 (F := F) x0 x2 x3 x4 x5 x6 x7 x8 x9 x10 x11 x12 x13 x14
    = fin (val_main_v91 (F := F) x0 x2 x3 x4 x5 x6 x7 x8 x9) x10 x11 x12 x13 x14 := rfl

end AnyFloat

end Cert.ReferenceIdeal.Layers

end
-- ==== Proof.FoldRead.lean ====
/-
  The kernel program's host side, read at the three launches' entries. Between the launches @main is the reference's own
  host text: the edge rows and columns cut out of the index array, the in-degree and its inverse square root, the edge
  normalisation, and per layer the aggregate (gather, scale, scatter-add). So every buffer a launch reads is, as a function
  of @main's arguments and of the previous launch's output array, a stage of the reference (or an argument as launched),
  and these equations hold at every float family: nothing is computed, the two texts are compared.
  The launches' own outputs stay opaque here: `W8 … main_v47`, `W10 … main_v62`, `W15 … main_v78`.
-/
import proofs.«430065_j90254442758730_3_alg».proof.Proof.Gen.KernelIdeal.Frame
import proofs.«430065_j90254442758730_3_alg».proof.Proof.RefStages
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.ReferenceIdeal.ReadP

variable {F : FTy → Type} [FloatOps F]
variable (m : (ℓ : Loc nD τ sig) → Buf (Elt F) ℓ) (ρ : Dev nD → PrngReg) (c : Dev nD)

/-! ## At the first launch's entry -/

/-- Argument 2 is as launched when the first launch is entered: no host operation before it writes an argument. -/
theorem in0_arg2 : W7 m ρ c (Proc.devRef .tc main_arg2) = m ((c.tc : Thread nD τ).loc main_arg2) := by
  dsimp only [W7, W6, W5, W4, W3, W2, W1, W0, hostOps0, hostOps0_1, hostOps0_2, hostOps0_3, hostOps0_4, hostOps0_5, hostOps0_6]
  after_results_simp <;> rfl

/-- Argument 3 is as launched when the first launch is entered: no host operation before it writes an argument. -/
theorem in0_arg3 : W7 m ρ c (Proc.devRef .tc main_arg3) = m ((c.tc : Thread nD τ).loc main_arg3) := by
  dsimp only [W7, W6, W5, W4, W3, W2, W1, W0, hostOps0, hostOps0_1, hostOps0_2, hostOps0_3, hostOps0_4, hostOps0_5, hostOps0_6]
  after_results_simp <;> rfl

/-- Argument 4 is as launched when the first launch is entered: no host operation before it writes an argument. -/
theorem in0_arg4 : W7 m ρ c (Proc.devRef .tc main_arg4) = m ((c.tc : Thread nD τ).loc main_arg4) := by
  dsimp only [W7, W6, W5, W4, W3, W2, W1, W0, hostOps0, hostOps0_1, hostOps0_2, hostOps0_3, hostOps0_4, hostOps0_5, hostOps0_6]
  after_results_simp <;> rfl

/-- Argument 5 is as launched when the first launch is entered: no host operation before it writes an argument. -/
theorem in0_arg5 : W7 m ρ c (Proc.devRef .tc main_arg5) = m ((c.tc : Thread nD τ).loc main_arg5) := by
  dsimp only [W7, W6, W5, W4, W3, W2, W1, W0, hostOps0, hostOps0_1, hostOps0_2, hostOps0_3, hostOps0_4, hostOps0_5, hostOps0_6]
  after_results_simp <;> rfl

/-- Argument 6 is as launched when the first launch is entered: no host operation before it writes an argument. -/
theorem in0_arg6 : W7 m ρ c (Proc.devRef .tc main_arg6) = m ((c.tc : Thread nD τ).loc main_arg6) := by
  dsimp only [W7, W6, W5, W4, W3, W2, W1, W0, hostOps0, hostOps0_1, hostOps0_2, hostOps0_3, hostOps0_4, hostOps0_5, hostOps0_6]
  after_results_simp <;> rfl

/-- Argument 7 is as launched when the first launch is entered: no host operation before it writes an argument. -/
theorem in0_arg7 : W7 m ρ c (Proc.devRef .tc main_arg7) = m ((c.tc : Thread nD τ).loc main_arg7) := by
  dsimp only [W7, W6, W5, W4, W3, W2, W1, W0, hostOps0, hostOps0_1, hostOps0_2, hostOps0_3, hostOps0_4, hostOps0_5, hostOps0_6]
  after_results_simp <;> rfl

/-- Argument 8 is as launched when the first launch is entered: no host operation before it writes an argument. -/
theorem in0_arg8 : W7 m ρ c (Proc.devRef .tc main_arg8) = m ((c.tc : Thread nD τ).loc main_arg8) := by
  dsimp only [W7, W6, W5, W4, W3, W2, W1, W0, hostOps0, hostOps0_1, hostOps0_2, hostOps0_3, hostOps0_4, hostOps0_5, hostOps0_6]
  after_results_simp <;> rfl

/-- Argument 9 is as launched when the first launch is entered: no host operation before it writes an argument. -/
theorem in0_arg9 : W7 m ρ c (Proc.devRef .tc main_arg9) = m ((c.tc : Thread nD τ).loc main_arg9) := by
  dsimp only [W7, W6, W5, W4, W3, W2, W1, W0, hostOps0, hostOps0_1, hostOps0_2, hostOps0_3, hostOps0_4, hostOps0_5, hostOps0_6]
  after_results_simp <;> rfl

/-- Argument 10 is as launched when the first launch is entered: no host operation before it writes an argument. -/
theorem in0_arg10 : W7 m ρ c (Proc.devRef .tc main_arg10) = m ((c.tc : Thread nD τ).loc main_arg10) := by
  dsimp only [W7, W6, W5, W4, W3, W2, W1, W0, hostOps0, hostOps0_1, hostOps0_2, hostOps0_3, hostOps0_4, hostOps0_5, hostOps0_6]
  after_results_simp <;> rfl

/-- Argument 11 is as launched when the first launch is entered: no host operation before it writes an argument. -/
theorem in0_arg11 : W7 m ρ c (Proc.devRef .tc main_arg11) = m ((c.tc : Thread nD τ).loc main_arg11) := by
  dsimp only [W7, W6, W5, W4, W3, W2, W1, W0, hostOps0, hostOps0_1, hostOps0_2, hostOps0_3, hostOps0_4, hostOps0_5, hostOps0_6]
  after_results_simp <;> rfl

/-- Argument 12 is as launched when the first launch is entered: no host operation before it writes an argument. -/
theorem in0_arg12 : W7 m ρ c (Proc.devRef .tc main_arg12) = m ((c.tc : Thread nD τ).loc main_arg12) := by
  dsimp only [W7, W6, W5, W4, W3, W2, W1, W0, hostOps0, hostOps0_1, hostOps0_2, hostOps0_3, hostOps0_4, hostOps0_5, hostOps0_6]
  after_results_simp <;> rfl

/-- Argument 13 is as launched when the first launch is entered: no host operation before it writes an argument. -/
theorem in0_arg13 : W7 m ρ c (Proc.devRef .tc main_arg13) = m ((c.tc : Thread nD τ).loc main_arg13) := by
  dsimp only [W7, W6, W5, W4, W3, W2, W1, W0, hostOps0, hostOps0_1, hostOps0_2, hostOps0_3, hostOps0_4, hostOps0_5, hostOps0_6]
  after_results_simp <;> rfl

/-- Argument 14 is as launched when the first launch is entered: no host operation before it writes an argument. -/
theorem in0_arg14 : W7 m ρ c (Proc.devRef .tc main_arg14) = m ((c.tc : Thread nD τ).loc main_arg14) := by
  dsimp only [W7, W6, W5, W4, W3, W2, W1, W0, hostOps0, hostOps0_1, hostOps0_2, hostOps0_3, hostOps0_4, hostOps0_5, hostOps0_6]
  after_results_simp <;> rfl

/-- The edges' source rows, at the first launch's entry. -/
theorem in0_v1 : W7 m ρ c (Proc.devRef .tc main_v1) = val_main_v1 (F := F) (m ((c.tc : Thread nD τ).loc main_arg0)) := by
  dsimp only [W7, W6, W5, W4, W3, W2, W1, W0, hostOps0, hostOps0_1, hostOps0_2, hostOps0_3, hostOps0_4, hostOps0_5, hostOps0_6]
  after_results_simp <;> rfl

/-- The edges' destination rows. -/
theorem in0_v3 : W7 m ρ c (Proc.devRef .tc main_v3) = val_main_v3 (F := F) (m ((c.tc : Thread nD τ).loc main_arg0)) := by
  dsimp only [W7, W6, W5, W4, W3, W2, W1, W0, hostOps0, hostOps0_1, hostOps0_2, hostOps0_3, hostOps0_4, hostOps0_5, hostOps0_6]
  after_results_simp <;> rfl

/-- The edge normalisation. -/
theorem in0_v31 : W7 m ρ c (Proc.devRef .tc main_v31) = val_main_v31 (F := F) (m ((c.tc : Thread nD τ).loc main_arg0)) := by
  dsimp only [W7, W6, W5, W4, W3, W2, W1, W0, hostOps0, hostOps0_1, hostOps0_2, hostOps0_3, hostOps0_4, hostOps0_5, hostOps0_6]
  after_results_simp <;> rfl

/-- The first launch's aggregate is the reference's first aggregate. -/
theorem in0_v45 : W7 m ρ c (Proc.devRef .tc main_v45)
    = val_main_v45 (F := F) (m ((c.tc : Thread nD τ).loc main_arg0)) (m ((c.tc : Thread nD τ).loc main_arg2)) (m ((c.tc : Thread nD τ).loc main_arg3)) := by
  dsimp only [W7, W6, W5, W4, W3, W2, W1, W0, hostOps0, hostOps0_1, hostOps0_2, hostOps0_3, hostOps0_4, hostOps0_5, hostOps0_6]
  after_results_simp <;> rfl

/-- The mask reaches the first launch widened to 32-bit words. -/
theorem in0_v46 : W7 m ρ c (Proc.devRef .tc main_v46) = extui 32 (m ((c.tc : Thread nD τ).loc main_arg3)) natLt_1_32 := by
  dsimp only [W7, W6, W5, W4, W3, W2, W1, W0, hostOps0, hostOps0_1, hostOps0_2, hostOps0_3, hostOps0_4, hostOps0_5, hostOps0_6]
  after_results_simp <;> rfl

end Cert.KernelIdeal.Fold

end
-- ==== Proof.FoldMid.lean ====
/-
  The kernel program's host side at the second and the third launch's entries and at the return. Between two launches the
  host text is the reference's aggregate applied to the earlier launch's output array; before the last launch it also pads
  the output weight and bias from 64 to 128 rows / entries with a converted integer zero; after it, it keeps the first 64
  columns. A buffer no launch writes is read back through the launch (the launch leaves every buffer other than its own
  arrays as it found it) to the first launch's entry, where it is a stage of the reference or an argument as launched.
-/
import proofs.«430065_j90254442758730_3_alg».proof.Proof.FoldRead

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.ReferenceIdeal.ReadP

variable {F : FTy → Type} [FloatOps F]
variable (m : (ℓ : Loc nD τ sig) → Buf (Elt F) ℓ) (ρ : Dev nD → PrngReg) (c : Dev nD)

/-! ## At the second launch's entry -/

/-- Argument 2 (the input features) is as launched when the second launch is entered. -/
theorem in1_arg2 : W9 m ρ c (Proc.devRef .tc main_arg2) = m ((c.tc : Thread nD τ).loc main_arg2) := by
  dsimp only [W9, hostOps1]
  after_results_simp
  -- the input features are one of the first launch's own arrays, an input window: the launch leaves it as entered
  exact ((W8_arr m ρ c 4).trans (((dat0 (V7 m ρ) c).arrAt_in 4 rfl _).trans (A_eq0 (V7 m ρ) c 4))).trans (in0_arg2 m ρ c)

/-- Argument 3 is as launched when the second launch is entered. -/
theorem in1_arg3 : W9 m ρ c (Proc.devRef .tc main_arg3) = m ((c.tc : Thread nD τ).loc main_arg3) := by
  dsimp only [W9, hostOps1]
  after_results_simp
  rw [W8_of_ne m ρ c main_arg3 (by decide)]
  exact in0_arg3 m ρ c

/-- Argument 7 is as launched when the second launch is entered. -/
theorem in1_arg7 : W9 m ρ c (Proc.devRef .tc main_arg7) = m ((c.tc : Thread nD τ).loc main_arg7) := by
  dsimp only [W9, hostOps1]
  after_results_simp
  rw [W8_of_ne m ρ c main_arg7 (by decide)]
  exact in0_arg7 m ρ c

/-- Argument 8 is as launched when the second launch is entered. -/
theorem in1_arg8 : W9 m ρ c (Proc.devRef .tc main_arg8) = m ((c.tc : Thread nD τ).loc main_arg8) := by
  dsimp only [W9, hostOps1]
  after_results_simp
  rw [W8_of_ne m ρ c main_arg8 (by decide)]
  exact in0_arg8 m ρ c

/-- Argument 9 is as launched when the second launch is entered. -/
theorem in1_arg9 : W9 m ρ c (Proc.devRef .tc main_arg9) = m ((c.tc : Thread nD τ).loc main_arg9) := by
  dsimp only [W9, hostOps1]
  after_results_simp
  rw [W8_of_ne m ρ c main_arg9 (by decide)]
  exact in0_arg9 m ρ c

/-- Argument 10 is as launched when the second launch is entered. -/
theorem in1_arg10 : W9 m ρ c (Proc.devRef .tc main_arg10) = m ((c.tc : Thread nD τ).loc main_arg10) := by
  dsimp only [W9, hostOps1]
  after_results_simp
  rw [W8_of_ne m ρ c main_arg10 (by decide)]
  exact in0_arg10 m ρ c

/-- Argument 11 is as launched when the second launch is entered. -/
theorem in1_arg11 : W9 m ρ c (Proc.devRef .tc main_arg11) = m ((c.tc : Thread nD τ).loc main_arg11) := by
  dsimp only [W9, hostOps1]
  after_results_simp
  rw [W8_of_ne m ρ c main_arg11 (by decide)]
  exact in0_arg11 m ρ c

/-- Argument 12 is as launched when the second launch is entered. -/
theorem in1_arg12 : W9 m ρ c (Proc.devRef .tc main_arg12) = m ((c.tc : Thread nD τ).loc main_arg12) := by
  dsimp only [W9, hostOps1]
  after_results_simp
  rw [W8_of_ne m ρ c main_arg12 (by decide)]
  exact in0_arg12 m ρ c

/-- Argument 13 is as launched when the second launch is entered. -/
theorem in1_arg13 : W9 m ρ c (Proc.devRef .tc main_arg13) = m ((c.tc : Thread nD τ).loc main_arg13) := by
  dsimp only [W9, hostOps1]
  after_results_simp
  rw [W8_of_ne m ρ c main_arg13 (by decide)]
  exact in0_arg13 m ρ c

/-- Argument 14 is as launched when the second launch is entered. -/
theorem in1_arg14 : W9 m ρ c (Proc.devRef .tc main_arg14) = m ((c.tc : Thread nD τ).loc main_arg14) := by
  dsimp only [W9, hostOps1]
  after_results_simp
  rw [W8_of_ne m ρ c main_arg14 (by decide)]
  exact in0_arg14 m ρ c

/-- The edges' source rows, unchanged by the first launch. -/
theorem in1_v1 : W9 m ρ c (Proc.devRef .tc main_v1) = val_main_v1 (F := F) (m ((c.tc : Thread nD τ).loc main_arg0)) := by
  dsimp only [W9, hostOps1]
  after_results_simp
  rw [W8_of_ne m ρ c main_v1 (by decide)]
  exact in0_v1 m ρ c

/-- The edges' destination rows, unchanged by the first launch. -/
theorem in1_v3 : W9 m ρ c (Proc.devRef .tc main_v3) = val_main_v3 (F := F) (m ((c.tc : Thread nD τ).loc main_arg0)) := by
  dsimp only [W9, hostOps1]
  after_results_simp
  rw [W8_of_ne m ρ c main_v3 (by decide)]
  exact in0_v3 m ρ c

/-- The edge normalisation, unchanged by the first launch. -/
theorem in1_v31 : W9 m ρ c (Proc.devRef .tc main_v31) = val_main_v31 (F := F) (m ((c.tc : Thread nD τ).loc main_arg0)) := by
  dsimp only [W9, hostOps1]
  after_results_simp
  rw [W8_of_ne m ρ c main_v31 (by decide)]
  exact in0_v31 m ρ c

/-- The second launch's aggregate is the aggregate of the first launch's output array. -/
theorem in1_v60 : W9 m ρ c (Proc.devRef .tc main_v60)
    = Cert.ReferenceIdeal.Layers.agg (F := F) (m ((c.tc : Thread nD τ).loc main_arg0)) (W8 m ρ c (Proc.devRef .tc main_v47)) := by
  dsimp only [W9, hostOps1]
  after_results_simp
  rw [W8_of_ne m ρ c main_v31 (by decide), W8_of_ne m ρ c main_v1 (by decide), W8_of_ne m ρ c main_v3 (by decide),
    in0_v31, in0_v1, in0_v3]
  rfl

/-- The mask reaches the second launch widened to 32-bit words. -/
theorem in1_v61 : W9 m ρ c (Proc.devRef .tc main_v61) = extui 32 (m ((c.tc : Thread nD τ).loc main_arg3)) natLt_1_32 := by
  dsimp only [W9, hostOps1]
  after_results_simp
  rw [W8_of_ne m ρ c main_arg3 (by decide), in0_arg3]

/-! ## At the third launch's entry -/

/-- Argument 10 is as launched when the third launch is entered. -/
theorem in2_arg10 : W14 m ρ c (Proc.devRef .tc main_arg10) = m ((c.tc : Thread nD τ).loc main_arg10) := by
  dsimp only [W14, W13, W12, W11, hostOps2, hostOps2_1, hostOps2_2, hostOps2_3]
  after_results_simp
  rw [W10_of_ne m ρ c main_arg10 (by decide)]
  exact in1_arg10 m ρ c

/-- Argument 11 is as launched when the third launch is entered. -/
theorem in2_arg11 : W14 m ρ c (Proc.devRef .tc main_arg11) = m ((c.tc : Thread nD τ).loc main_arg11) := by
  dsimp only [W14, W13, W12, W11, hostOps2, hostOps2_1, hostOps2_2, hostOps2_3]
  after_results_simp
  rw [W10_of_ne m ρ c main_arg11 (by decide)]
  exact in1_arg11 m ρ c

/-- Argument 12 is as launched when the third launch is entered. -/
theorem in2_arg12 : W14 m ρ c (Proc.devRef .tc main_arg12) = m ((c.tc : Thread nD τ).loc main_arg12) := by
  dsimp only [W14, W13, W12, W11, hostOps2, hostOps2_1, hostOps2_2, hostOps2_3]
  after_results_simp
  rw [W10_of_ne m ρ c main_arg12 (by decide)]
  exact in1_arg12 m ρ c

/-- The third launch's aggregate is the aggregate of the second launch's output array. -/
theorem in2_v75 : W14 m ρ c (Proc.devRef .tc main_v75)
    = Cert.ReferenceIdeal.Layers.agg (F := F) (m ((c.tc : Thread nD τ).loc main_arg0)) (W10 m ρ c (Proc.devRef .tc main_v62)) := by
  dsimp only [W14, W13, W12, W11, hostOps2, hostOps2_1, hostOps2_2, hostOps2_3]
  after_results_simp
  rw [W10_of_ne m ρ c main_v31 (by decide), W10_of_ne m ρ c main_v1 (by decide), W10_of_ne m ρ c main_v3 (by decide),
    in1_v31, in1_v1, in1_v3]
  rfl

/-- The output weight reaches the last launch padded below with 64 rows of a converted integer zero. -/
theorem in2_v76 : W14 m ρ c (Proc.devRef .tc main_v76)
    = pad S128x128 ![0, 0] ![64, 0] ![0, 0] (m ((c.tc : Thread nD τ).loc main_arg13)) (sitofp (F := F) .f32 (constantI S_ 32 0#32)) pads_S64x128_S128x128_0640_000 h_S_ := by
  dsimp only [W14, W13, W12, W11, hostOps2, hostOps2_1, hostOps2_2, hostOps2_3]
  after_results_simp
  rw [W10_of_ne m ρ c main_arg13 (by decide), in1_arg13]
  rfl

/-- The output bias reaches the last launch padded with 64 entries of a converted integer zero. -/
theorem in2_v77 : W14 m ρ c (Proc.devRef .tc main_v77)
    = pad S128 ![0] ![64] ![0] (m ((c.tc : Thread nD τ).loc main_arg14)) (sitofp (F := F) .f32 (constantI S_ 32 0#32)) pads_S64_S128_0640 h_S_ := by
  dsimp only [W14, W13, W12, W11, hostOps2, hostOps2_1, hostOps2_2, hostOps2_3]
  after_results_simp
  rw [W10_of_ne m ρ c main_arg14 (by decide), in1_arg14]
  rfl

/-! ## At the return -/

/-- The result is the first 64 columns of the last launch's output array. -/
theorem out_v79 : W16 m ρ c (Proc.devRef .tc main_v79)
    = extractStridedSlice S50000x64 ![0, 0] (W15 m ρ c (Proc.devRef .tc main_v78)) slices_S50000x128_S50000x64_0_0 := by
  dsimp only [W16, hostOps3]
  after_results_simp

end Cert.KernelIdeal.Fold

end
-- ==== Proof.Spec.lean ====
/-
  The mathematics of the three launches, as whole-array functions over literal shapes, index by index, at the ideal
  instance (a float is an extended real). N = 50000 nodes, D = 128 features, 64 outputs.

  A graph-convolution layer takes the aggregated features `agg : [N, D]` to the affine map
    lin agg W b bias (p, q) = (Σ_k agg[p, k] · W[q, k]) + b[q] + bias[q]
  (the product with the TRANSPOSE of `W`, then the two bias rows added in that order), followed by max(·, 0).
  A hidden layer then keeps the input feature `x[p, q]` wherever the mask holds and the layer's value elsewhere;
  the last layer feeds max(lin, 0) into one more affine map, against the transpose of `Wf` plus `bf`.
  The zero of the maximum is kept as the word both programs print (`Ideal.ofBits .f32 0`): it is never evaluated.
-/
import Idealize.ShloMosaic.PureOps.Ideal
import Idealize.ShloMosaic.Lib.ValueIdx

noncomputable section

open scoped BigOperators

open Idealize.ShloMosaic Idealize.ShloMosaic.ValueIdx

namespace Cert.Layer

/-- [N, D]: node features. -/
abbrev SN : Shape := ⟨2, ![50000, 128]⟩
/-- [D, D]: a layer's weight, and the last map's weight padded to D rows. -/
abbrev SW : Shape := ⟨2, ![128, 128]⟩
/-- [D]: a bias row, and the last map's bias padded to D entries. -/
abbrev SB : Shape := ⟨1, ![128]⟩
/-- [N, 64]: the result. -/
abbrev SO : Shape := ⟨2, ![50000, 64]⟩
/-- [64, D]: the last map's weight. -/
abbrev SWf : Shape := ⟨2, ![64, 128]⟩
/-- [64]: the last map's bias. -/
abbrev SBf : Shape := ⟨1, ![64]⟩

/-- The zero both programs print as the word 0x00000000. -/
abbrev z32 : EReal := Ideal.ofBits .f32 0x00000000#32

/-- The layer's affine map at node `p`, feature `q`: row `p` of `agg` against row `q` of `W`, plus the two biases,
    `b` first. -/
def lin (agg : FVec Ideal SN .f32) (W : FVec Ideal SW .f32) (b bias : FVec Ideal SB .f32) (p : Fin 50000) (q : Fin 128) : EReal :=
  (∑ k : Fin 128, agg (ix2 p k) * W (ix2 q k)) + b (ix1 q) + bias (ix1 q)

/-- A hidden layer's array: the input feature where the mask bit is set, max(lin, 0) elsewhere. -/
def hidden (agg : FVec Ideal SN .f32) (W : FVec Ideal SW .f32) (b bias : FVec Ideal SB .f32) (x : FVec Ideal SN .f32)
    (M : IVec SN 1) : FVec Ideal SN .f32 :=
  fun y => Scalar.select (M y) (x y) (max (lin agg W b bias (y 0) (y 1)) z32)

/-- The same array when the mask arrives widened to 32-bit words: a word that is not zero selects the input feature. -/
def hiddenW (agg : FVec Ideal SN .f32) (W : FVec Ideal SW .f32) (b bias : FVec Ideal SB .f32) (x : FVec Ideal SN .f32)
    (M32 : IVec SN 32) : FVec Ideal SN .f32 :=
  fun y => Scalar.select (IntOp.cmpi .ne (M32 y) 0#32) (x y) (max (lin agg W b bias (y 0) (y 1)) z32)

/-- The last layer's array: max(lin, 0) of row `p` against row `j` of `Wf`, plus `bf[j]`. -/
def final (agg : FVec Ideal SN .f32) (W : FVec Ideal SW .f32) (b bias : FVec Ideal SB .f32) (Wf : FVec Ideal SWf .f32)
    (bf : FVec Ideal SBf .f32) : FVec Ideal SO .f32 :=
  fun y => (∑ k : Fin 128, max (lin agg W b bias (y 0) k) z32 * Wf (ix2 (y 1) k)) + bf (ix1 (y 1))

/-- The last layer over a weight of D rows and a bias of D entries (the kernel pads `Wf` and `bf` to these and cuts the
    result's columns back to 64). -/
def finalWide (agg : FVec Ideal SN .f32) (W : FVec Ideal SW .f32) (b bias : FVec Ideal SB .f32) (Wfp : FVec Ideal SW .f32)
    (bfp : FVec Ideal SB .f32) : FVec Ideal SN .f32 :=
  fun y => (∑ k : Fin 128, max (lin agg W b bias (y 0) k) z32 * Wfp (ix2 (y 1) k)) + bfp (ix1 (y 1))

end Cert.Layer

end
-- ==== Proof.HiddenBlock.lean ====
/-
  The two hidden-layer launches: what each leaves in its output array, as ONE function of the arrays it finds.

  A launch runs over five grid points; point t handles rows 10000·t … 10000·t + 9999 of the node arrays and sees the
  whole weight and both bias rows. At a point the body computes, for a row p of the block and a feature q,
      select(mask[p, q] ≠ 0, x[p, q], max((Σ_k agg[p, k] · W[q, k]) + b[q] + bias[q], 0)),
  the product being taken against the transpose of W. Read through the blocks' positions in their arrays this is the
  hidden layer of the whole arrays restricted to the block, and the five blocks tile the 50000 rows.
-/
import proofs.«430065_j90254442758730_3_alg».proof.Proof.Gen.KernelIdeal.Frame
import proofs.«430065_j90254442758730_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layer

/-! ## The body's value at an index -/

/-- Output row `p` of the product pairs with row `p` of the left operand. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the summation index. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the summation index. -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Output column `q` of the product pairs with column `q` of the right operand. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator, at row `p` and column `q`: Σ_k left[p, k] · right[k, q]. -/
theorem product_apply (a : FVec Ideal S10000x128 .f32) (w : FVec Ideal S128x128 .f32) (p : Fin 10000) (q : Fin 128) :
    matmul (F := Ideal) dot_S10000x128_S128x128_S10000x128_1_0_0_1_n_n none a w (constant (F := Ideal) S10000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The transposed weight at (k, q) is the weight at (q, k). -/
theorem transposed_apply (w : FVec Ideal S128x128 .f32) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- A bias row laid over every row of the block: at (p, q) it is the row's entry `q`. -/
theorem bias_apply (b : FVec Ideal S128 .f32) (p : Fin 10000) (q : Fin 128) :
    broadcastTo S10000x128 (shapeCast S1x128 b shapeCasts_S128_S1x128) broadcasts_S1x128_S10000x128 (ix2 p q) = b (ix1 q) := by
  rw [broadcastTo_1b_ab_apply, shapeCast_a_1a_apply]

/-- THE BODY'S VALUE at row `p`, feature `q` of the block: the input feature where the mask word is not zero, else
    max((Σ_k agg[p, k] · W[q, k]) + b[q] + bias[q], 0). -/
theorem pay_apply (x0 : Vec Ideal S10000x128 .f32) (x1 : Vec Ideal S128x128 .f32) (x2 x3 : Vec Ideal S128 .f32)
    (m32 : Vec Ideal S10000x128 .i32) (x : Vec Ideal S10000x128 .f32) (p : Fin 10000) (q : Fin 128) :
    k0_pay1 x0 x1 x2 x3 m32 x (ix2 p q)
      = Scalar.select (IntOp.cmpi .ne (m32 (ix2 p q)) 0#32) (x (ix2 p q))
          (max ((∑ k : Fin 128, x0 (ix2 p k) * x1 (ix2 q k)) + x2 (ix1 q) + x3 (ix1 q)) z32) := by
  unfold k0_pay1
  rw [select_apply, maximumf_apply, addf_apply, addf_apply, shapeCast_self, product_apply, bias_apply, bias_apply,
    Finset.sum_congr rfl fun k _ => by rw [transposed_apply x1 k q]]
  rfl

/-! ## Launch 0: from the points' blocks to the array -/

theorem zero_pair : (![0, 0] : Fin 2 → Nat) = fun _ => 0 := funext fun a => by fin_cases a <;> rfl
theorem zero_single : (![0] : Fin 1 → Nat) = fun _ => 0 := funext fun a => by fin_cases a <;> rfl

/-- The printed index maps over the five points: the aggregate, the input features and the mask move with the output's
    row block and stay on column block 0; the weight and the bias rows stay on block 0 throughout; the output's row
    block is one of 0 … 4. -/
theorem idx_facts0 : ∀ t : Fin cfg0.N, win0_0.index t (0 : Fin 2) = win0_6.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 1) = 0
    ∧ win0_4.index t (0 : Fin 2) = win0_6.index t (0 : Fin 2)
    ∧ win0_4.index t (1 : Fin 2) = 0
    ∧ win0_5.index t (0 : Fin 2) = win0_6.index t (0 : Fin 2)
    ∧ win0_5.index t (1 : Fin 2) = 0
    ∧ win0_6.index t (0 : Fin 2) ≤ 4
    ∧ win0_6.index t (1 : Fin 2) = 0 :=
  (by decide +kernel : ∀ t : Fin grid0.N, _)

/-- Every row block 0 … 4 is some point's. -/
theorem idx_onto0 : ∀ q0 : Fin 5, ∃ t : Fin cfg0.N, win0_6.index t = ![q0.val, 0] :=
  (by decide +kernel : ∀ q0 : Fin 5, ∃ t : Fin grid0.N, win0_6.index t = ![q0.val, 0])

-- the TensorCore's buffer contents when the region is entered
variable (V : (c : Dev nD) → (b : Ref sig .tc) → Buf (Elt Ideal) ((c : Thread nD τ).loc b))

/-- The aggregate's block at point `t`: row `p` of the block is row `r` = 10000 · (the point's row block) + p of the array. -/
theorem agg_block0 (c : Dev nD) (t : Fin cfg0.N) (p : Fin 10000) (k : Fin 128) (r : Fin 50000)
    (hr : r.val = win0_6.index t (0 : Fin 2) * 10000 + p.val) :
    (iblk0 V c 0 t : Vec Ideal S10000x128 .f32) (ix2 p k) = V c main_v45 (ix2 r k) := by
  obtain ⟨e0, e1, -⟩ := idx_facts0 t
  show V c main_v45 (((cfg0.win 0).blk t).view.emb (ix2 p k)) = V c main_v45 (ix2 r k)
  have h : ((cfg0.win 0).blk t).view.emb (ix2 p k) = ix2 r k := by
    funext a; apply Fin.ext
    match a with
    | ⟨0, _⟩ => show win0_0.index t (0 : Fin 2) * 10000 + 1 * p.val = r.val; omega
    | ⟨1, _⟩ => show win0_0.index t (1 : Fin 2) * 128 + 1 * k.val = k.val; omega
  rw [h]

/-- The weight's block is the whole weight at every point. -/
theorem weight_block0 (c : Dev nD) (t : Fin cfg0.N) (q k : Fin 128) :
    (iblk0 V c 1 t : Vec Ideal S128x128 .f32) (ix2 q k) = V c main_arg4 (ix2 q k) := by
  obtain ⟨-, -, e2, e3, -⟩ := idx_facts0 t
  show V c main_arg4 (((cfg0.win 1).blk t).view.emb (ix2 q k)) = V c main_arg4 (ix2 q k)
  have h : ((cfg0.win 1).blk t).view.emb (ix2 q k) = ix2 q k := by
    funext a; apply Fin.ext
    match a with
    | ⟨0, _⟩ => show win0_1.index t (0 : Fin 2) * 128 + 1 * q.val = q.val; omega
    | ⟨1, _⟩ => show win0_1.index t (1 : Fin 2) * 128 + 1 * k.val = k.val; omega
  rw [h]

/-- The first bias row's block is the whole row at every point. -/
theorem b_block0 (c : Dev nD) (t : Fin cfg0.N) (q : Fin 128) :
    (iblk0 V c 2 t : Vec Ideal S128 .f32) (ix1 q) = V c main_arg5 (ix1 q) := by
  obtain ⟨-, -, -, -, e4, -⟩ := idx_facts0 t
  show V c main_arg5 (((cfg0.win 2).blk t).view.emb (ix1 q)) = V c main_arg5 (ix1 q)
  have h : ((cfg0.win 2).blk t).view.emb (ix1 q) = ix1 q := by
    funext a; apply Fin.ext
    match a with
    | ⟨0, _⟩ => show win0_2.index t (0 : Fin 1) * 128 + 1 * q.val = q.val; omega
  rw [h]

/-- The second bias row's block is the whole row at every point. -/
theorem bias_block0 (c : Dev nD) (t : Fin cfg0.N) (q : Fin 128) :
    (iblk0 V c 3 t : Vec Ideal S128 .f32) (ix1 q) = V c main_arg6 (ix1 q) := by
  obtain ⟨-, -, -, -, -, e5, -⟩ := idx_facts0 t
  show V c main_arg6 (((cfg0.win 3).blk t).view.emb (ix1 q)) = V c main_arg6 (ix1 q)
  have h : ((cfg0.win 3).blk t).view.emb (ix1 q) = ix1 q := by
    funext a; apply Fin.ext
    match a with
    | ⟨0, _⟩ => show win0_3.index t (0 : Fin 1) * 128 + 1 * q.val = q.val; omega
  rw [h]

/-- The input features' block at point `t`: rows of the array as the aggregate's. -/
theorem x_block0 (c : Dev nD) (t : Fin cfg0.N) (p : Fin 10000) (q : Fin 128) (r : Fin 50000)
    (hr : r.val = win0_6.index t (0 : Fin 2) * 10000 + p.val) :
    (iblk0 V c 4 t : Vec Ideal S10000x128 .f32) (ix2 p q) = V c main_arg2 (ix2 r q) := by
  obtain ⟨-, -, -, -, -, -, e6, e7, -⟩ := idx_facts0 t
  show V c main_arg2 (((cfg0.win 4).blk t).view.emb (ix2 p q)) = V c main_arg2 (ix2 r q)
  have h : ((cfg0.win 4).blk t).view.emb (ix2 p q) = ix2 r q := by
    funext a; apply Fin.ext
    match a with
    | ⟨0, _⟩ => show win0_4.index t (0 : Fin 2) * 10000 + 1 * p.val = r.val; omega
    | ⟨1, _⟩ => show win0_4.index t (1 : Fin 2) * 128 + 1 * q.val = q.val; omega
  rw [h]

/-- The widened mask's block at point `t`, likewise. -/
theorem mask_block0 (c : Dev nD) (t : Fin cfg0.N) (p : Fin 10000) (q : Fin 128) (r : Fin 50000)
    (hr : r.val = win0_6.index t (0 : Fin 2) * 10000 + p.val) :
    (iblk0 V c 5 t : Vec Ideal S10000x128 .i32) (ix2 p q) = V c main_v46 (ix2 r q) := by
  obtain ⟨-, -, -, -, -, -, -, -, e8, e9, -⟩ := idx_facts0 t
  show V c main_v46 (((cfg0.win 5).blk t).view.emb (ix2 p q)) = V c main_v46 (ix2 r q)
  have h : ((cfg0.win 5).blk t).view.emb (ix2 p q) = ix2 r q := by
    funext a; apply Fin.ext
    match a with
    | ⟨0, _⟩ => show win0_5.index t (0 : Fin 2) * 10000 + 1 * p.val = r.val; omega
    | ⟨1, _⟩ => show win0_5.index t (1 : Fin 2) * 128 + 1 * q.val = q.val; omega
  rw [h]

/-- Where the output's block at point `t` lies in the array. -/
theorem out_emb0 (t : Fin cfg0.N) (p : Fin 10000) (q : Fin 128) (r : Fin 50000)
    (hr : r.val = win0_6.index t (0 : Fin 2) * 10000 + p.val) :
    ((cfg0.win 6).blk t).view.emb (ix2 p q) = ix2 r q := by
  obtain ⟨-, -, -, -, -, -, -, -, -, -, -, e11⟩ := idx_facts0 t
  funext a; apply Fin.ext
  match a with
  | ⟨0, _⟩ => show win0_6.index t (0 : Fin 2) * 10000 + 1 * p.val = r.val; omega
  | ⟨1, _⟩ => show win0_6.index t (1 : Fin 2) * 128 + 1 * q.val = q.val; omega

/-- WHAT POINT `t` WRITES BACK is block `t` of the hidden layer of the arrays the launch finds. -/
theorem flushed0_eq (c : Dev nD) (t : Fin cfg0.N) :
    (dat0 (F := Ideal) V c).flushed 6 t = ((cfg0.win 6).blk t).view.read (Elt Ideal)
      (hiddenW (V c main_v45) (V c main_arg4) (V c main_arg5) (V c main_arg6) (V c main_arg2) (V c main_v46)) := by
  show (cfg0.win 6).cut (grid0.coords t) ((dat0 (F := Ideal) V c).after 6 t) = _
  rw [after0_6]
  unfold out0_6
  rw [View.canon_unit_zero zero_pair]
  simp only [View.ld_unit_zero (S := S10000x128) zero_pair, View.ld_unit_zero (S := S128x128) zero_pair, View.ld_unit_zero (S := S128) zero_single]
  funext j
  obtain ⟨p, q, rfl⟩ : ∃ (p : Fin 10000) (q : Fin 128), j = ix2 p q := ⟨j 0, j 1, eq_ix2 j⟩
  have hle : win0_6.index t (0 : Fin 2) ≤ 4 := (idx_facts0 t).2.2.2.2.2.2.2.2.2.2.1
  have hr : win0_6.index t (0 : Fin 2) * 10000 + p.val < 50000 := by have := p.isLt; omega
  show k0_pay1 (iblk0 V c 0 t) (iblk0 V c 1 t) (iblk0 V c 2 t) (iblk0 V c 3 t) (iblk0 V c 5 t) (iblk0 V c 4 t) (ix2 p q)
    = hiddenW (V c main_v45) (V c main_arg4) (V c main_arg5) (V c main_arg6) (V c main_arg2) (V c main_v46)
        (((cfg0.win 6).blk t).view.emb (ix2 p q))
  rw [pay_apply, out_emb0 t p q ⟨_, hr⟩ rfl, mask_block0 V c t p q ⟨_, hr⟩ rfl,
    x_block0 V c t p q ⟨_, hr⟩ rfl, b_block0, bias_block0,
    Finset.sum_congr rfl fun k _ => by rw [agg_block0 V c t p k ⟨_, hr⟩ rfl, weight_block0 V c t q k]]
  rfl

/-- An index of the array is in point `t`'s block iff each coordinate is in the block's range on its axis. -/
theorem mem_blk0 (t : Fin cfg0.N) (i : S50000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v47).slice (win0_6.rect t)).set ↔ _
  rw [View.set_slice_whole, Rect.mem_set_unit]
  exact Iff.rfl

/-- THE FIVE BLOCKS COVER THE ARRAY: row `r` lies in the block of the point whose row block is r / 10000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- After the first hidden-layer launch its output array holds the hidden layer of the arrays the launch finds:
    the aggregate, the weight, the two bias rows, the input features and the widened mask. -/
theorem final0 (c : Dev nD) :
    (dat0 (F := Ideal) V c).arrAt 6 cfg0.N
      = hiddenW (V c main_v45) (V c main_arg4) (V c main_arg5) (V c main_arg6) (V c main_arg2) (V c main_v46) :=
  (dat0 (F := Ideal) V c).arrAt_eq_of_cover 6 _ (fun t _ => flushed0_eq V c t) cover0

/-! ## Launch 1: the same road over its own windows and arrays -/

/-- The second launch runs the same body: its value at an index is the first's. -/
theorem pay1_apply (x0 : Vec Ideal S10000x128 .f32) (x1 : Vec Ideal S128x128 .f32) (x2 x3 : Vec Ideal S128 .f32)
    (m32 : Vec Ideal S10000x128 .i32) (x : Vec Ideal S10000x128 .f32) (p : Fin 10000) (q : Fin 128) :
    k1_pay1 x0 x1 x2 x3 m32 x (ix2 p q)
      = Scalar.select (IntOp.cmpi .ne (m32 (ix2 p q)) 0#32) (x (ix2 p q))
          (max ((∑ k : Fin 128, x0 (ix2 p k) * x1 (ix2 q k)) + x2 (ix1 q) + x3 (ix1 q)) z32) :=
  pay_apply x0 x1 x2 x3 m32 x p q

/-- The printed index maps over the five points: the aggregate, the input features and the mask move with the output's
    row block and stay on column block 0; the weight and the bias rows stay on block 0 throughout; the output's row
    block is one of 0 … 4. -/
theorem idx_facts1 : ∀ t : Fin cfg1.N, win1_0.index t (0 : Fin 2) = win1_6.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 1) = 0
    ∧ win1_4.index t (0 : Fin 2) = win1_6.index t (0 : Fin 2)
    ∧ win1_4.index t (1 : Fin 2) = 0
    ∧ win1_5.index t (0 : Fin 2) = win1_6.index t (0 : Fin 2)
    ∧ win1_5.index t (1 : Fin 2) = 0
    ∧ win1_6.index t (0 : Fin 2) ≤ 4
    ∧ win1_6.index t (1 : Fin 2) = 0 :=
  (by decide +kernel : ∀ t : Fin grid1.N, _)

/-- Every row block 0 … 4 is some point's. -/
theorem idx_onto1 : ∀ q0 : Fin 5, ∃ t : Fin cfg1.N, win1_6.index t = ![q0.val, 0] :=
  (by decide +kernel : ∀ q0 : Fin 5, ∃ t : Fin grid1.N, win1_6.index t = ![q0.val, 0])

/-- The aggregate's block at point `t`: row `p` of the block is row `r` = 10000 · (the point's row block) + p of the array. -/
theorem agg_block1 (c : Dev nD) (t : Fin cfg1.N) (p : Fin 10000) (k : Fin 128) (r : Fin 50000)
    (hr : r.val = win1_6.index t (0 : Fin 2) * 10000 + p.val) :
    (iblk1 V c 0 t : Vec Ideal S10000x128 .f32) (ix2 p k) = V c main_v60 (ix2 r k) := by
  obtain ⟨e0, e1, -⟩ := idx_facts1 t
  show V c main_v60 (((cfg1.win 0).blk t).view.emb (ix2 p k)) = V c main_v60 (ix2 r k)
  have h : ((cfg1.win 0).blk t).view.emb (ix2 p k) = ix2 r k := by
    funext a; apply Fin.ext
    match a with
    | ⟨0, _⟩ => show win1_0.index t (0 : Fin 2) * 10000 + 1 * p.val = r.val; omega
    | ⟨1, _⟩ => show win1_0.index t (1 : Fin 2) * 128 + 1 * k.val = k.val; omega
  rw [h]

/-- The weight's block is the whole weight at every point. -/
theorem weight_block1 (c : Dev nD) (t : Fin cfg1.N) (q k : Fin 128) :
    (iblk1 V c 1 t : Vec Ideal S128x128 .f32) (ix2 q k) = V c main_arg7 (ix2 q k) := by
  obtain ⟨-, -, e2, e3, -⟩ := idx_facts1 t
  show V c main_arg7 (((cfg1.win 1).blk t).view.emb (ix2 q k)) = V c main_arg7 (ix2 q k)
  have h : ((cfg1.win 1).blk t).view.emb (ix2 q k) = ix2 q k := by
    funext a; apply Fin.ext
    match a with
    | ⟨0, _⟩ => show win1_1.index t (0 : Fin 2) * 128 + 1 * q.val = q.val; omega
    | ⟨1, _⟩ => show win1_1.index t (1 : Fin 2) * 128 + 1 * k.val = k.val; omega
  rw [h]

/-- The first bias row's block is the whole row at every point. -/
theorem b_block1 (c : Dev nD) (t : Fin cfg1.N) (q : Fin 128) :
    (iblk1 V c 2 t : Vec Ideal S128 .f32) (ix1 q) = V c main_arg8 (ix1 q) := by
  obtain ⟨-, -, -, -, e4, -⟩ := idx_facts1 t
  show V c main_arg8 (((cfg1.win 2).blk t).view.emb (ix1 q)) = V c main_arg8 (ix1 q)
  have h : ((cfg1.win 2).blk t).view.emb (ix1 q) = ix1 q := by
    funext a; apply Fin.ext
    match a with
    | ⟨0, _⟩ => show win1_2.index t (0 : Fin 1) * 128 + 1 * q.val = q.val; omega
  rw [h]

/-- The second bias row's block is the whole row at every point. -/
theorem bias_block1 (c : Dev nD) (t : Fin cfg1.N) (q : Fin 128) :
    (iblk1 V c 3 t : Vec Ideal S128 .f32) (ix1 q) = V c main_arg9 (ix1 q) := by
  obtain ⟨-, -, -, -, -, e5, -⟩ := idx_facts1 t
  show V c main_arg9 (((cfg1.win 3).blk t).view.emb (ix1 q)) = V c main_arg9 (ix1 q)
  have h : ((cfg1.win 3).blk t).view.emb (ix1 q) = ix1 q := by
    funext a; apply Fin.ext
    match a with
    | ⟨0, _⟩ => show win1_3.index t (0 : Fin 1) * 128 + 1 * q.val = q.val; omega
  rw [h]

/-- The input features' block at point `t`: rows of the array as the aggregate's. -/
theorem x_block1 (c : Dev nD) (t : Fin cfg1.N) (p : Fin 10000) (q : Fin 128) (r : Fin 50000)
    (hr : r.val = win1_6.index t (0 : Fin 2) * 10000 + p.val) :
    (iblk1 V c 4 t : Vec Ideal S10000x128 .f32) (ix2 p q) = V c main_arg2 (ix2 r q) := by
  obtain ⟨-, -, -, -, -, -, e6, e7, -⟩ := idx_facts1 t
  show V c main_arg2 (((cfg1.win 4).blk t).view.emb (ix2 p q)) = V c main_arg2 (ix2 r q)
  have h : ((cfg1.win 4).blk t).view.emb (ix2 p q) = ix2 r q := by
    funext a; apply Fin.ext
    match a with
    | ⟨0, _⟩ => show win1_4.index t (0 : Fin 2) * 10000 + 1 * p.val = r.val; omega
    | ⟨1, _⟩ => show win1_4.index t (1 : Fin 2) * 128 + 1 * q.val = q.val; omega
  rw [h]

/-- The widened mask's block at point `t`, likewise. -/
theorem mask_block1 (c : Dev nD) (t : Fin cfg1.N) (p : Fin 10000) (q : Fin 128) (r : Fin 50000)
    (hr : r.val = win1_6.index t (0 : Fin 2) * 10000 + p.val) :
    (iblk1 V c 5 t : Vec Ideal S10000x128 .i32) (ix2 p q) = V c main_v61 (ix2 r q) := by
  obtain ⟨-, -, -, -, -, -, -, -, e8, e9, -⟩ := idx_facts1 t
  show V c main_v61 (((cfg1.win 5).blk t).view.emb (ix2 p q)) = V c main_v61 (ix2 r q)
  have h : ((cfg1.win 5).blk t).view.emb (ix2 p q) = ix2 r q := by
    funext a; apply Fin.ext
    match a with
    | ⟨0, _⟩ => show win1_5.index t (0 : Fin 2) * 10000 + 1 * p.val = r.val; omega
    | ⟨1, _⟩ => show win1_5.index t (1 : Fin 2) * 128 + 1 * q.val = q.val; omega
  rw [h]

/-- Where the output's block at point `t` lies in the array. -/
theorem out_emb1 (t : Fin cfg1.N) (p : Fin 10000) (q : Fin 128) (r : Fin 50000)
    (hr : r.val = win1_6.index t (0 : Fin 2) * 10000 + p.val) :
    ((cfg1.win 6).blk t).view.emb (ix2 p q) = ix2 r q := by
  obtain ⟨-, -, -, -, -, -, -, -, -, -, -, e11⟩ := idx_facts1 t
  funext a; apply Fin.ext
  match a with
  | ⟨0, _⟩ => show win1_6.index t (0 : Fin 2) * 10000 + 1 * p.val = r.val; omega
  | ⟨1, _⟩ => show win1_6.index t (1 : Fin 2) * 128 + 1 * q.val = q.val; omega

/-- WHAT POINT `t` WRITES BACK is block `t` of the hidden layer of the arrays the launch finds. -/
theorem flushed1_eq (c : Dev nD) (t : Fin cfg1.N) :
    (dat1 (F := Ideal) V c).flushed 6 t = ((cfg1.win 6).blk t).view.read (Elt Ideal)
      (hiddenW (V c main_v60) (V c main_arg7) (V c main_arg8) (V c main_arg9) (V c main_arg2) (V c main_v61)) := by
  show (cfg1.win 6).cut (grid1.coords t) ((dat1 (F := Ideal) V c).after 6 t) = _
  rw [after1_6]
  unfold out1_6
  rw [View.canon_unit_zero zero_pair]
  simp only [View.ld_unit_zero (S := S10000x128) zero_pair, View.ld_unit_zero (S := S128x128) zero_pair, View.ld_unit_zero (S := S128) zero_single]
  funext j
  obtain ⟨p, q, rfl⟩ : ∃ (p : Fin 10000) (q : Fin 128), j = ix2 p q := ⟨j 0, j 1, eq_ix2 j⟩
  have hle : win1_6.index t (0 : Fin 2) ≤ 4 := (idx_facts1 t).2.2.2.2.2.2.2.2.2.2.1
  have hr : win1_6.index t (0 : Fin 2) * 10000 + p.val < 50000 := by have := p.isLt; omega
  show k1_pay1 (iblk1 V c 0 t) (iblk1 V c 1 t) (iblk1 V c 2 t) (iblk1 V c 3 t) (iblk1 V c 5 t) (iblk1 V c 4 t) (ix2 p q)
    = hiddenW (V c main_v60) (V c main_arg7) (V c main_arg8) (V c main_arg9) (V c main_arg2) (V c main_v61)
        (((cfg1.win 6).blk t).view.emb (ix2 p q))
  rw [pay1_apply, out_emb1 t p q ⟨_, hr⟩ rfl, mask_block1 V c t p q ⟨_, hr⟩ rfl,
    x_block1 V c t p q ⟨_, hr⟩ rfl, b_block1, bias_block1,
    Finset.sum_congr rfl fun k _ => by rw [agg_block1 V c t p k ⟨_, hr⟩ rfl, weight_block1 V c t q k]]
  rfl

/-- An index of the array is in point `t`'s block iff each coordinate is in the block's range on its axis. -/
theorem mem_blk1 (t : Fin cfg1.N) (i : S50000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v62).slice (win1_6.rect t)).set ↔ _
  rw [View.set_slice_whole, Rect.mem_set_unit]
  exact Iff.rfl

/-- THE FIVE BLOCKS COVER THE ARRAY: row `r` lies in the block of the point whose row block is r / 10000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto1 ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- The second hidden-layer launch, the same function of its own arrays. -/
theorem final1 (c : Dev nD) :
    (dat1 (F := Ideal) V c).arrAt 6 cfg1.N
      = hiddenW (V c main_v60) (V c main_arg7) (V c main_arg8) (V c main_arg9) (V c main_arg2) (V c main_v61) :=
  (dat1 (F := Ideal) V c).arrAt_eq_of_cover 6 _ (fun t _ => flushed1_eq V c t) cover1

end Cert.KernelIdeal.Blocks

end
-- ==== Proof.FinalBlock.lean ====
/-
  The last launch: what it leaves in its output array, as ONE function of the arrays it finds.
-/
import proofs.«430065_j90254442758730_3_alg».proof.Proof.Gen.KernelIdeal.Frame
import proofs.«430065_j90254442758730_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layer

-- the TensorCore's buffer contents when the region is entered
variable (V : (c : Dev nD) → (b : Ref sig .tc) → Buf (Elt Ideal) ((c : Thread nD τ).loc b))

/-! ## A matrix product into the zero accumulator, at an index

The launch's two products contract the left operand's columns against the right operand's rows. Read at row `p`,
column `j`, such a product is the sum over `k` of left `(p, k)` times right `(k, j)`: the four facts below say which
coordinate of each operand index is the output's and which is the contraction's. -/

/-- The left operand's row is the output's row. -/
theorem dot_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contraction index. -/
theorem dot_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction index. -/
theorem dot_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column. -/
theorem dot_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator, at `(p, j)`: Σ_k left[p, k] · right[k, j]. -/
theorem matmul_zero_at (lhs : FVec Ideal S10000x128 .f32) (rhs : FVec Ideal S128x128 .f32) (p : Fin 10000) (j : Fin 128) :
    matmul dot_S10000x128_S128x128_S10000x128_1_0_0_1_n_n none lhs rhs (constant (F := Ideal) S10000x128 .f32 0x00000000#32) (ix2 p j)
      = ∑ k : Fin 128, lhs (ix2 p k) * rhs (ix2 k j) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p j) ((ValueIdx.contrEquiv1 dot_S10000x128_S128x128_S10000x128_1_0_0_1_n_n 128 rfl rfl).symm k) = ix2 p k := funext fun a => Fin.ext (by
    match a with
    | ⟨0, _⟩ => exact dot_lhs_row _ _
    | ⟨1, _⟩ => exact (dot_lhs_col _ _).trans hk)
  have er : dot_S10000x128_S128x128_S10000x128_1_0_0_1_n_n.rhsIdx (ix2 p j) ((ValueIdx.contrEquiv1 dot_S10000x128_S128x128_S10000x128_1_0_0_1_n_n 128 rfl rfl).symm k) = ix2 k j := funext fun a => Fin.ext (by
    match a with
    | ⟨0, _⟩ => exact (dot_rhs_row _ _).trans hk
    | ⟨1, _⟩ => exact dot_rhs_col _ _)
  rw [el, er]

/-! ## The layout operations of the body, at an index -/

/-- A bias row cast to one row and broadcast over the block's rows reads, at `(p, q)`, the row at `q`. -/
theorem bias_row_at (v : FVec Ideal S128 .f32) (p : Fin 10000) (q : Fin 128) :
    broadcastTo S10000x128 (shapeCast S1x128 v shapeCasts_S128_S1x128) broadcasts_S1x128_S10000x128 (ix2 p q) = v (ix1 q) := by
  rw [broadcastTo_1b_ab_apply, shapeCast_a_1a_apply]

/-- The weight transposed reads, at `(k, q)`, the weight at `(q, k)`. -/
theorem weightT_at (w : FVec Ideal S128x128 .f32) (k q : Fin 128) :
    transpose S128x128 [1, 0] w transposes_S128x128_p1_0_S128x128 (ix2 k q) = w (ix2 q k) := by
  rw [transpose_ix2_apply]

/-- The product against a weight transposed in the body, at `(p, j)`: Σ_k left[p, k] · weight[j, k]. -/
theorem matmulT_zero_at (lhs : FVec Ideal S10000x128 .f32) (w : FVec Ideal S128x128 .f32) (p : Fin 10000) (j : Fin 128) :
    matmul dot_S10000x128_S128x128_S10000x128_1_0_0_1_n_n none lhs (transpose S128x128 [1, 0] w transposes_S128x128_p1_0_S128x128)
        (constant (F := Ideal) S10000x128 .f32 0x00000000#32) (ix2 p j)
      = ∑ k : Fin 128, lhs (ix2 p k) * w (ix2 j k) := by
  rw [matmul_zero_at]
  exact Finset.sum_congr rfl fun k _ => by rw [weightT_at]

/-! ## The body's payload at an index -/

/-- The hidden value the body forms, max(block · Wᵀ + b + bias, 0), at row `p`, feature `k`. -/
def hid (x0 : FVec Ideal S10000x128 .f32) (x1 : FVec Ideal S128x128 .f32) (x2 x3 : FVec Ideal S128 .f32) : FVec Ideal S10000x128 .f32 :=
  maximumf (addf (addf (matmul dot_S10000x128_S128x128_S10000x128_1_0_0_1_n_n none (shapeCast S10000x128 x0 shapeCasts_S10000x128_S10000x128)
      (transpose S128x128 [1, 0] x1 transposes_S128x128_p1_0_S128x128) (constant (F := Ideal) S10000x128 .f32 0x00000000#32))
    (broadcastTo S10000x128 (shapeCast S1x128 x2 shapeCasts_S128_S1x128) broadcasts_S1x128_S10000x128))
    (broadcastTo S10000x128 (shapeCast S1x128 x3 shapeCasts_S128_S1x128) broadcasts_S1x128_S10000x128))
    (broadcast S10000x128 (Scalar.ofBits (F := Ideal) .f32 0x00000000#32))

/-- The hidden value at `(p, k)`: row `p` of the block against row `k` of the weight, plus the two biases at `k`, then the
    maximum with the zero word. -/
theorem hid_at (x0 : FVec Ideal S10000x128 .f32) (x1 : FVec Ideal S128x128 .f32) (x2 x3 : FVec Ideal S128 .f32) (p : Fin 10000) (k : Fin 128) :
    hid x0 x1 x2 x3 (ix2 p k) = max ((∑ k' : Fin 128, x0 (ix2 p k') * x1 (ix2 k k')) + x2 (ix1 k) + x3 (ix1 k)) z32 := by
  unfold hid
  rw [maximumf_apply, addf_apply, addf_apply, matmulT_zero_at, bias_row_at, bias_row_at, shapeCast_self, broadcast_apply]
  rfl

/-- The payload at `(p, j)`: the hidden values of row `p` against row `j` of the output weight, plus the output bias at `j`
    (the second product's left operand at `(p, k)` is the hidden value at `(p, k)`). -/
theorem pay_at (x0 : Vec Ideal S10000x128 .f32) (x1 : Vec Ideal S128x128 .f32) (x2 x3 : Vec Ideal S128 .f32) (x4 : Vec Ideal S128x128 .f32) (x5 : Vec Ideal S128 .f32) (p : Fin 10000) (j : Fin 128) :
    k2_pay1 x0 x1 x2 x3 x4 x5 (ix2 p j)
      = (∑ k : Fin 128, max ((∑ k' : Fin 128, x0 (ix2 p k') * x1 (ix2 k k')) + x2 (ix1 k) + x3 (ix1 k)) z32 * x4 (ix2 j k)) + x5 (ix1 j) := by
  show addf (matmul dot_S10000x128_S128x128_S10000x128_1_0_0_1_n_n none (hid x0 x1 x2 x3)
      (transpose S128x128 [1, 0] (shapeCast S128x128 x4 shapeCasts_S128x128_S128x128) transposes_S128x128_p1_0_S128x128) (constant (F := Ideal) S10000x128 .f32 0x00000000#32))
    (broadcastTo S10000x128 (shapeCast S1x128 (shapeCast S128 x5 shapeCasts_S128_S128) shapeCasts_S128_S1x128) broadcasts_S1x128_S10000x128) (ix2 p j) = _
  rw [addf_apply, matmulT_zero_at, bias_row_at, shapeCast_self, shapeCast_self]
  simp only [hid_at]

/-! ## The payload of blocks that are rows of the arrays

When the aggregate block's row `p` is the array's row `r`, the weights and biases are the arrays themselves, and row `q`
of the output weight and entry `q` of the output bias are the arrays' at `q'`, the payload at `(p, q)` is the last layer
at `(r, q')`. -/

/-- The payload over such blocks is the last layer of the arrays. -/
theorem pay_of_rows (A : FVec Ideal SN .f32) (W : FVec Ideal SW .f32) (b bias : FVec Ideal SB .f32) (Wfp : FVec Ideal SW .f32) (bfp : FVec Ideal SB .f32)
    (x0 : Vec Ideal S10000x128 .f32) (x1 : Vec Ideal S128x128 .f32) (x2 x3 : Vec Ideal S128 .f32) (x4 : Vec Ideal S128x128 .f32) (x5 : Vec Ideal S128 .f32)
    (p : Fin 10000) (q : Fin 128) (r : Fin 50000) (q' : Fin 128)
    (h0 : ∀ k : Fin 128, x0 (ix2 p k) = A (ix2 r k)) (h1 : ∀ a k : Fin 128, x1 (ix2 a k) = W (ix2 a k))
    (h2 : ∀ a : Fin 128, x2 (ix1 a) = b (ix1 a)) (h3 : ∀ a : Fin 128, x3 (ix1 a) = bias (ix1 a))
    (h4 : ∀ k : Fin 128, x4 (ix2 q k) = Wfp (ix2 q' k)) (h5 : x5 (ix1 q) = bfp (ix1 q')) :
    k2_pay1 x0 x1 x2 x3 x4 x5 (ix2 p q) = finalWide A W b bias Wfp bfp (ix2 r q') := by
  rw [pay_at]
  show _ = (∑ k : Fin 128, max ((∑ k' : Fin 128, A (ix2 r k') * W (ix2 k k')) + b (ix1 k) + bias (ix1 k)) z32 * Wfp (ix2 q' k)) + bfp (ix1 q')
  simp only [h0, h1, h2, h3, h4, h5]

/-! ## From the blocks to the array -/

/-- The zero offsets of a whole-block access, rank 2 and rank 1. -/
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the five grid points: the aggregate's block moves with the output's block down the rows,
    every other window stays at block 0, and the output's row block index is at most 4. -/
theorem index_facts : ∀ t : Fin cfg2.N,
    win2_0.index t (0 : Fin 2) = win2_6.index t (0 : Fin 2) ∧ win2_0.index t (1 : Fin 2) = 0
    ∧ win2_1.index t (0 : Fin 2) = 0 ∧ win2_1.index t (1 : Fin 2) = 0
    ∧ win2_2.index t (0 : Fin 1) = 0 ∧ win2_3.index t (0 : Fin 1) = 0
    ∧ win2_4.index t (0 : Fin 2) = 0 ∧ win2_4.index t (1 : Fin 2) = 0
    ∧ win2_5.index t (0 : Fin 1) = 0
    ∧ win2_6.index t (0 : Fin 2) ≤ 4 ∧ win2_6.index t (1 : Fin 2) = 0 :=
  (by decide +kernel : ∀ t : Fin grid2.N, _)

/-- Each of the five row blocks is some point's. -/
theorem index_onto : ∀ q0 : Fin 5, ∃ t : Fin cfg2.N, win2_6.index t = ![q0.val, 0] :=
  (by decide +kernel : ∀ q0 : Fin 5, ∃ t : Fin grid2.N, win2_6.index t = ![q0.val, 0])

/-- An array of the output's shape read through point `t`'s output block at `(p, q)` is the array at row
    (row block index) · 10000 + p, column `q`. -/
theorem read_out_block (G : FVec Ideal SN .f32) (t : Fin cfg2.N) (p : Fin 10000) (q : Fin 128) (r : Fin 50000)
    (hr : r.val = win2_6.index t (0 : Fin 2) * 10000 + 1 * p.val) (hq : win2_6.index t (1 : Fin 2) = 0) :
    ((cfg2.win 6).blk t).view.read (Elt Ideal) G (ix2 p q) = G (ix2 r q) := by
  show G (((cfg2.win 6).blk t).view.emb (ix2 p q)) = G (ix2 r q)
  refine congrArg G (funext fun d => Fin.ext ?_)
  match d with
  | ⟨0, _⟩ => show win2_6.index t (0 : Fin 2) * 10000 + 1 * p.val = r.val; rw [hr]
  | ⟨1, _⟩ => show win2_6.index t (1 : Fin 2) * 128 + 1 * q.val = q.val; omega

/-- What point `t` writes back is block `t` of the last layer over the arrays the launch finds. -/
theorem flushed_final (c : Dev nD) (t : Fin cfg2.N) :
    (dat2 (F := Ideal) V c).flushed 6 t = ((cfg2.win 6).blk t).view.read (Elt Ideal)
      (finalWide (V c main_v75) (V c main_arg10) (V c main_arg11) (V c main_arg12) (V c main_v76) (V c main_v77)) := by
  show (cfg2.win 6).cut (grid2.coords t) ((dat2 (F := Ideal) V c).after 6 t) = _
  rw [after2_6]
  unfold out2_6
  rw [View.canon_unit_zero zeros2]
  simp only [View.ld_unit_zero (S := S10000x128) zeros2, View.ld_unit_zero (S := S128x128) zeros2, View.ld_unit_zero (S := S128) zeros1]
  obtain ⟨e00, e01, e10, e11, e2, e3, e40, e41, e5, e6b, e61⟩ := index_facts t
  funext j
  obtain ⟨p, q, rfl⟩ : ∃ (p : Fin 10000) (q : Fin 128), j = ix2 p q := ⟨j 0, j 1, eq_ix2 j⟩
  have hrow : win2_6.index t (0 : Fin 2) * 10000 + 1 * p.val < 50000 := by have := p.isLt; omega
  refine (pay_of_rows (V c main_v75) (V c main_arg10) (V c main_arg11) (V c main_arg12) (V c main_v76) (V c main_v77) _ _ _ _ _ _ p q
      ⟨win2_6.index t (0 : Fin 2) * 10000 + 1 * p.val, hrow⟩ q ?_ ?_ ?_ ?_ ?_ ?_).trans ?_
  · -- row p of the aggregate's block is row (block index) · 10000 + p of the aggregate
    intro k
    show V c main_v75 (((cfg2.win 0).blk t).view.emb (ix2 p k)) = V c main_v75 (ix2 ⟨win2_6.index t (0 : Fin 2) * 10000 + 1 * p.val, hrow⟩ k)
    refine congrArg (V c main_v75) (funext fun a => Fin.ext ?_)
    match a with
    | ⟨0, _⟩ => show win2_0.index t (0 : Fin 2) * 10000 + 1 * p.val = win2_6.index t (0 : Fin 2) * 10000 + 1 * p.val; rw [e00]
    | ⟨1, _⟩ => show win2_0.index t (1 : Fin 2) * 128 + 1 * k.val = k.val; omega
  · -- the weight's one block is the weight
    intro a k
    show V c main_arg10 (((cfg2.win 1).blk t).view.emb (ix2 a k)) = V c main_arg10 (ix2 a k)
    refine congrArg (V c main_arg10) (funext fun d => Fin.ext ?_)
    match d with
    | ⟨0, _⟩ => show win2_1.index t (0 : Fin 2) * 128 + 1 * a.val = a.val; omega
    | ⟨1, _⟩ => show win2_1.index t (1 : Fin 2) * 128 + 1 * k.val = k.val; omega
  · -- the first bias row's one block is the row
    intro a
    show V c main_arg11 (((cfg2.win 2).blk t).view.emb (ix1 a)) = V c main_arg11 (ix1 a)
    refine congrArg (V c main_arg11) (funext fun d => Fin.ext ?_)
    match d with
    | ⟨0, _⟩ => show win2_2.index t (0 : Fin 1) * 128 + 1 * a.val = a.val; omega
  · -- the second bias row's one block is the row
    intro a
    show V c main_arg12 (((cfg2.win 3).blk t).view.emb (ix1 a)) = V c main_arg12 (ix1 a)
    refine congrArg (V c main_arg12) (funext fun d => Fin.ext ?_)
    match d with
    | ⟨0, _⟩ => show win2_3.index t (0 : Fin 1) * 128 + 1 * a.val = a.val; omega
  · -- the output weight's one block is the output weight
    intro k
    show V c main_v76 (((cfg2.win 4).blk t).view.emb (ix2 q k)) = V c main_v76 (ix2 q k)
    refine congrArg (V c main_v76) (funext fun d => Fin.ext ?_)
    match d with
    | ⟨0, _⟩ => show win2_4.index t (0 : Fin 2) * 128 + 1 * q.val = q.val; omega
    | ⟨1, _⟩ => show win2_4.index t (1 : Fin 2) * 128 + 1 * k.val = k.val; omega
  · -- the output bias's one block is the output bias
    show V c main_v77 (((cfg2.win 5).blk t).view.emb (ix1 q)) = V c main_v77 (ix1 q)
    refine congrArg (V c main_v77) (funext fun d => Fin.ext ?_)
    match d with
    | ⟨0, _⟩ => show win2_5.index t (0 : Fin 1) * 128 + 1 * q.val = q.val; omega
  · -- and (p, q) of the output's block is that row and column q of the output
    exact (read_out_block _ t p q _ rfl e61).symm

/-- An index of the output array is in point `t`'s block iff each coordinate is in the block's range on its axis. -/
theorem mem_block (t : Fin cfg2.N) (i : S50000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v78).slice (win2_6.rect t)).set ↔ _
  rw [View.set_slice_whole, Rect.mem_set_unit]
  exact Iff.rfl

/-- Every index of the output array is in some point's block: row `r` in the block of the point whose row block index
    is `r / 10000`. -/
theorem covered (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := index_onto ⟨(i 0).val / 10000, by omega⟩
  have q0 : win2_6.index t (0 : Fin 2) = (i 0).val / 10000 := congrFun ht 0
  have q1 : win2_6.index t (1 : Fin 2) = 0 := congrFun ht 1
  refine ⟨t, flush2_6 t, ?_⟩
  rw [mem_block]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 128 ≤ (i 1).val ∧ (i 1).val < win2_6.index t (1 : Fin 2) * 128 + 128; omega

/-- After the last launch its output array holds the last layer over the padded weight and bias the launch finds. -/
theorem final2 (c : Dev nD) :
    (dat2 (F := Ideal) V c).arrAt 6 cfg2.N
      = finalWide (V c main_v75) (V c main_arg10) (V c main_arg11) (V c main_arg12) (V c main_v76) (V c main_v77) :=
  (dat2 (F := Ideal) V c).arrAt_eq_of_cover 6 _ (fun t _ => flushed_final V c t) covered

end Cert.KernelIdeal.Blocks

end
-- ==== Proof.MaskPad.lean ====
/-
  Two small facts between what the kernel's host side hands its launches and the specification.
  The mask reaches a hidden-layer launch widened from one bit to a 32-bit word, and the body tests the word against zero:
  a widened bit is not zero exactly when the bit is set, so the launch's choice is the mask's.
  The last launch gets the output weight and bias padded from 64 to 128 rows / entries and its result is cut back to the
  first 64 columns: a kept column j < 64 reads row j of the padded weight and entry j of the padded bias, which are the
  unpadded ones, so the padding value is never read.
-/
import proofs.«430065_j90254442758730_3_alg».proof.Proof.Spec
import Idealize.ShloMosaic.Lib.Pipeline.Value

noncomputable section

open scoped BigOperators

open Idealize.ShloMosaic Idealize.ShloMosaic.ValueIdx

namespace Cert.Layer

/-- A bit widened to a word differs from the zero word exactly when the bit is set. -/
theorem ne_zero_widen (b : BitVec 1) : IntOp.cmpi .ne (b.setWidth 32) 0#32 = b := by
  by_cases h : b = 1#1
  · subst h; decide
  · have h0 := eq_zero_of_ne_one h
    subst h0; decide

/-- The hidden layer over the widened mask is the hidden layer over the mask. -/
theorem hiddenW_widen (agg : FVec Ideal SN .f32) (W : FVec Ideal SW .f32) (b bias : FVec Ideal SB .f32) (x : FVec Ideal SN .f32)
    (M : IVec SN 1) (h : 1 < 32) :
    hiddenW agg W b bias x (extui 32 M h) = hidden agg W b bias x M := by
  funext y
  unfold hiddenW hidden
  rw [extui_apply, ne_zero_widen]

/-- Row `j < 64` of the weight padded below with 64 rows is row `j` of the weight. -/
theorem pad_rows_apply (Wf : FVec Ideal SWf .f32) {u : Shape} (v : u.Idx → EReal)
    (hW : SWf.Pads ![0, 0] ![64, 0] ![0, 0] SW) (hu : 0 < u.numel) (j : Fin 64) (k : Fin 128) :
    pad SW ![0, 0] ![64, 0] ![0, 0] Wf v hW hu (ix2 ⟨j.val, by omega⟩ k) = Wf (ix2 j k) := by
  unfold pad
  rw [dif_pos]
  · congr 1
    funext a
    match a with
    | ⟨0, _⟩ => exact Fin.ext (by show (j.val - 0) / (0 + 1) = j.val; omega)
    | ⟨1, _⟩ => exact Fin.ext (by show (k.val - 0) / (0 + 1) = k.val; omega)
  · intro a
    match a with
    | ⟨0, _⟩ => exact ⟨Nat.zero_le _, by show (j.val - 0) % (0 + 1) = 0; omega, by show (j.val - 0) / (0 + 1) < 64; omega⟩
    | ⟨1, _⟩ => exact ⟨Nat.zero_le _, by show (k.val - 0) % (0 + 1) = 0; omega, by show (k.val - 0) / (0 + 1) < 128; omega⟩

/-- Entry `j < 64` of the bias padded with 64 entries is entry `j` of the bias. -/
theorem pad_entries_apply (bf : FVec Ideal SBf .f32) {u : Shape} (v : u.Idx → EReal)
    (hB : SBf.Pads ![0] ![64] ![0] SB) (hu : 0 < u.numel) (j : Fin 64) :
    pad SB ![0] ![64] ![0] bf v hB hu (ix1 ⟨j.val, by omega⟩) = bf (ix1 j) := by
  unfold pad
  rw [dif_pos]
  · congr 1
    funext a
    match a with
    | ⟨0, _⟩ => exact Fin.ext (by show (j.val - 0) / (0 + 1) = j.val; omega)
  · intro a
    match a with
    | ⟨0, _⟩ => exact ⟨Nat.zero_le _, by show (j.val - 0) % (0 + 1) = 0; omega, by show (j.val - 0) / (0 + 1) < 64; omega⟩

/-- The first 64 columns of the last layer over the padded weight and bias are the last layer over the weight and bias. -/
theorem final_of_wide (agg : FVec Ideal SN .f32) (W : FVec Ideal SW .f32) (b bias : FVec Ideal SB .f32) (Wf : FVec Ideal SWf .f32)
    (bf : FVec Ideal SBf .f32) {u u' : Shape} (v : u.Idx → EReal) (v' : u'.Idx → EReal)
    (hW : SWf.Pads ![0, 0] ![64, 0] ![0, 0] SW) (hB : SBf.Pads ![0] ![64] ![0] SB) (hu : 0 < u.numel) (hu' : 0 < u'.numel)
    (hs : SN.Slices ![0, 0] SO) :
    extractStridedSlice SO ![0, 0] (finalWide agg W b bias (pad SW ![0, 0] ![64, 0] ![0, 0] Wf v hW hu) (pad SB ![0] ![64] ![0] bf v' hB hu')) hs
      = final agg W b bias Wf bf := by
  funext y
  obtain ⟨p, j, rfl⟩ : ∃ (p : Fin 50000) (j : Fin 64), y = ix2 p j := ⟨y 0, y 1, eq_ix2 y⟩
  have hy : (fun a : Fin SN.rank => (⟨(![0, 0] : Fin 2 → Nat) a + ((ix2 p j : SO.Idx) (a.cast hs.1.symm)).val,
      Nat.lt_of_lt_of_le (Nat.add_lt_add_left ((ix2 p j : SO.Idx) _).isLt _) (hs.2 a)⟩ : Fin (SN.size a)))
      = (ix2 p (⟨j.val, by omega⟩ : Fin 128) : SN.Idx) := by
    funext a
    match a with
    | ⟨0, _⟩ => exact Fin.ext (by show 0 + p.val = p.val; omega)
    | ⟨1, _⟩ => exact Fin.ext (by show 0 + j.val = j.val; omega)
  show finalWide agg W b bias _ _ _ = _
  rw [hy]
  unfold finalWide final
  show (∑ k : Fin 128, max (lin agg W b bias p k) z32 * pad SW ![0, 0] ![64, 0] ![0, 0] Wf v hW hu (ix2 ⟨j.val, by omega⟩ k))
      + pad SB ![0] ![64] ![0] bf v' hB hu' (ix1 ⟨j.val, by omega⟩)
    = (∑ k : Fin 128, max (lin agg W b bias p k) z32 * Wf (ix2 j k)) + bf (ix1 j)
  rw [pad_entries_apply]
  congr 1
  exact Finset.sum_congr rfl fun k _ => by rw [pad_rows_apply]

end Cert.Layer

end
-- ==== Proof.RefLayers.lean ====
/-
  The reference's hidden layer and last layer, read index by index at the ideal instance (a float is an extended real,
  and sum, product and maximum are the extended reals' own). A product with a transposed weight reads, at (p, q), the sum
  over k of the left row p at k times the weight's row q at k; a bias row broadcast along the nodes reads its entry q;
  the broadcast zero reads the zero word. With these the hidden layer and the last layer are, index by index, the affine
  map, the maximum with zero and the masked choice of the specification.
-/
import proofs.«430065_j90254442758730_3_alg».proof.Proof.RefRead
import proofs.«430065_j90254442758730_3_alg».proof.Proof.RefStages
import proofs.«430065_j90254442758730_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Layers

open Idealize.ShloMosaic Idealize.ShloMosaic.TcCoe Idealize.ShloMosaic.ValueIdx Idealize.SL.Sem
open Cert.ReferenceIdeal Cert.ReferenceIdeal.ReadP Cert.Layer

/-- The product of a [50000, 128] array with a [128, 128] array, at an index: the sum over the contracted axis of the
    left row's entries times the right column's. -/
theorem dotSq_apply (l : FVec Ideal S50000x128 .f32) (r : FVec Ideal S128x128 .f32) (i : S50000x128.Idx) :
    Host.dotGeneral dot_S50000x128_S128x128_S50000x128_1_0_0_1_n_n none l r i = ∑ k : Fin 128, l (lidx_main_v47 i k) * r (ridx_main_v47 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v47 i k := funext fun a => Fin.ext (by
    match a with
    | ⟨0, _⟩ => exact lhs_main_v47_0 _ _
    | ⟨1, _⟩ => exact (lhs_main_v47_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v47 i k := funext fun a => Fin.ext (by
    match a with
    | ⟨0, _⟩ => exact (rhs_main_v47_0 _ _).trans hk
    | ⟨1, _⟩ => exact rhs_main_v47_1 _ _)
  rw [el, er]

/-- The product of a [50000, 128] array with a [128, 64] array, at an index. -/
theorem dotOut_apply (l : FVec Ideal S50000x128 .f32) (r : FVec Ideal S128x64 .f32) (i : S50000x64.Idx) :
    Host.dotGeneral dot_S50000x128_S128x64_S50000x64_1_0_0_1_n_n none l r i = ∑ k : Fin 128, l (lidx_main_v102 i k) * r (ridx_main_v102 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v102 i k := funext fun a => Fin.ext (by
    match a with
    | ⟨0, _⟩ => exact lhs_main_v102_0 _ _
    | ⟨1, _⟩ => exact (lhs_main_v102_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v102 i k := funext fun a => Fin.ext (by
    match a with
    | ⟨0, _⟩ => exact (rhs_main_v102_0 _ _).trans hk
    | ⟨1, _⟩ => exact rhs_main_v102_1 _ _)
  rw [el, er]

/-- At the ideal instance a hidden layer is the specification's, index by index. -/
theorem hid_eq (a : FVec Ideal S50000x128 .f32) (x2 : FVec Ideal S50000x128 .f32) (x3 : IVec S50000x128 1) (x4 : FVec Ideal S128x128 .f32)
    (x5 x6 : FVec Ideal S128 .f32) :
    hid (F := Ideal) a x2 x3 x4 x5 x6 = hidden a x4 x5 x6 x2 x3 := by
  funext y
  obtain ⟨p, q, rfl⟩ : ∃ (p : Fin 50000) (q : Fin 128), y = ix2 p q := ⟨y 0, y 1, eq_ix2 y⟩
  unfold hid Cert.Layer.hidden lin
  rw [ValueIdx.select_apply, ValueIdx.maximumf_apply, ValueIdx.addf_apply, ValueIdx.addf_apply, dotSq_apply]
  simp only [val_main_v46_apply, val_main_v49_apply, val_main_v48_apply, val_main_v52_apply, val_main_v51_apply,
    val_main_call3_v0_apply, val_main_call3_cst_apply]
  -- the composed index maps are the specification's constructors
  have e1 : ∀ k : Fin 128, lidx_main_v47 (ix2 p q) k = ix2 p k := fun k => funext fun a => Fin.ext (by match a with | ⟨0, _⟩ => rfl | ⟨1, _⟩ => rfl)
  have e2 : ∀ k : Fin 128, idx_main_v46 (ridx_main_v47 (ix2 p q) k) = ix2 q k := fun k => funext fun a => Fin.ext (by match a with | ⟨0, _⟩ => rfl | ⟨1, _⟩ => rfl)
  have e3 : idx_main_v48 (idx_main_v49 (ix2 p q)) = ix1 q := funext fun a => Fin.ext (by match a with | ⟨0, _⟩ => rfl)
  have e4 : idx_main_v51 (idx_main_v52 (ix2 p q)) = ix1 q := funext fun a => Fin.ext (by match a with | ⟨0, _⟩ => rfl)
  simp only [e1, e2, e3, e4]
  rfl

/-- The last stage's inner layer at node `p`, feature `k`: the affine map, then the maximum with zero. -/
theorem inner_apply (a : FVec Ideal S50000x128 .f32) (x10 : FVec Ideal S128x128 .f32) (x11 x12 : FVec Ideal S128 .f32)
    (p : Fin 50000) (k : Fin 128) :
    maximumf (addf (addf (Host.dotGeneral (φ₁ := .f32) (φ₂ := .f32) dot_S50000x128_S128x128_S50000x128_1_0_0_1_n_n none a (val_main_v92 (F := Ideal) x10))
        (val_main_v95 (F := Ideal) x11)) (val_main_v98 (F := Ideal) x12)) (val_main_call7_v0 (F := Ideal)) (ix2 p k)
      = max (lin a x10 x11 x12 p k) z32 := by
  unfold lin
  rw [ValueIdx.maximumf_apply, ValueIdx.addf_apply, ValueIdx.addf_apply, dotSq_apply]
  simp only [val_main_v92_apply, val_main_v95_apply, val_main_v94_apply, val_main_v98_apply, val_main_v97_apply,
    val_main_call7_v0_apply, val_main_call7_cst_apply]
  have e1 : ∀ m : Fin 128, lidx_main_v47 (ix2 p k) m = ix2 p m := fun m => funext fun a => Fin.ext (by match a with | ⟨0, _⟩ => rfl | ⟨1, _⟩ => rfl)
  have e2 : ∀ m : Fin 128, idx_main_v92 (ridx_main_v47 (ix2 p k) m) = ix2 k m := fun m => funext fun a => Fin.ext (by match a with | ⟨0, _⟩ => rfl | ⟨1, _⟩ => rfl)
  have e3 : idx_main_v94 (idx_main_v95 (ix2 p k)) = ix1 k := funext fun a => Fin.ext (by match a with | ⟨0, _⟩ => rfl)
  have e4 : idx_main_v97 (idx_main_v98 (ix2 p k)) = ix1 k := funext fun a => Fin.ext (by match a with | ⟨0, _⟩ => rfl)
  simp only [e1, e2, e3, e4]
  rfl

/-- At the ideal instance the last layer is the specification's, index by index. -/
theorem fin_eq (a : FVec Ideal S50000x128 .f32) (x10 : FVec Ideal S128x128 .f32) (x11 x12 : FVec Ideal S128 .f32)
    (x13 : FVec Ideal S64x128 .f32) (x14 : FVec Ideal S64 .f32) :
    fin (F := Ideal) a x10 x11 x12 x13 x14 = final a x10 x11 x12 x13 x14 := by
  funext y
  obtain ⟨p, j, rfl⟩ : ∃ (p : Fin 50000) (j : Fin 64), y = ix2 p j := ⟨y 0, y 1, eq_ix2 y⟩
  unfold fin Cert.Layer.final
  rw [ValueIdx.addf_apply, dotOut_apply]
  simp only [val_main_v101_apply, val_main_v104_apply, val_main_v103_apply]
  have e1 : ∀ k : Fin 128, lidx_main_v102 (ix2 p j) k = ix2 p k := fun k => funext fun a => Fin.ext (by match a with | ⟨0, _⟩ => rfl | ⟨1, _⟩ => rfl)
  have e2 : ∀ k : Fin 128, idx_main_v101 (ridx_main_v102 (ix2 p j) k) = ix2 j k := fun k => funext fun a => Fin.ext (by match a with | ⟨0, _⟩ => rfl | ⟨1, _⟩ => rfl)
  have e3 : idx_main_v103 (idx_main_v104 (ix2 p j)) = ix1 j := funext fun a => Fin.ext (by match a with | ⟨0, _⟩ => rfl)
  -- under the outer sum the left factor at (p, k) is the inner layer there; the right factor is row j of the output weight
  simp only [e1, e2, e3, inner_apply]

end Cert.ReferenceIdeal.Layers

end
-- ==== Proof.KernelValue.lean ====
/-
  The kernel program's result as a function of @main's arguments, at the ideal instance.
  Launch by launch: a hidden-layer launch leaves in its output array the hidden layer of the arrays it finds (its block
  theorem); what it finds are the reference's stages (the host side read at its entry), the mask widened to words, which
  selects as the mask does; so its output is the reference's hidden layer of the same aggregate. The next aggregate is the
  reference's aggregate of that array. The last launch leaves the last layer over the padded weight and bias, whose first
  64 columns are the last layer over the weight and bias. Composed, the result is the reference's closing stage.
-/
import proofs.«430065_j90254442758730_3_alg».proof.Proof.FoldMid
import proofs.«430065_j90254442758730_3_alg».proof.Proof.HiddenBlock
import proofs.«430065_j90254442758730_3_alg».proof.Proof.FinalBlock
import proofs.«430065_j90254442758730_3_alg».proof.Proof.MaskPad
import proofs.«430065_j90254442758730_3_alg».proof.Proof.RefLayers

set_option maxRecDepth 16384

noncomputable section

namespace Cert.KernelIdeal.ValueOf

open Idealize.ShloMosaic Idealize.ShloMosaic.TcCoe Idealize.SL.Sem
open Cert.KernelIdeal Cert.KernelIdeal.Gen Cert.KernelIdeal.Fold Cert.KernelIdeal.Blocks
open Cert.ReferenceIdeal.ReadP Cert.ReferenceIdeal.Layers Cert.Layer

variable (m : (ℓ : Loc nD τ sig) → Buf (Elt Ideal) ℓ) (ρ : Dev nD → PrngReg) (c : Dev nD)

/-- The first launch's output array is the reference's first hidden layer. -/
theorem out0 : W8 m ρ c (Proc.devRef .tc main_v47)
    = hid (F := Ideal) (val_main_v45 (F := Ideal) (m ((c.tc : Thread nD τ).loc main_arg0)) (m ((c.tc : Thread nD τ).loc main_arg2)) (m ((c.tc : Thread nD τ).loc main_arg3))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 6).trans ?_
  refine (final0 (V7 m ρ) c).trans ?_
  dsimp only [V7]
  rw [in0_v45 m ρ c, in0_arg4 m ρ c, in0_arg5 m ρ c, in0_arg6 m ρ c, in0_arg2 m ρ c, in0_v46 m ρ c]
  exact (hiddenW_widen _ _ _ _ _ _ _).trans (hid_eq _ _ _ _ _ _).symm

/-- The second launch's output array is the reference's hidden layer of the aggregate of the first launch's output. -/
theorem out1 : W10 m ρ c (Proc.devRef .tc main_v62)
    = hid (F := Ideal) (agg (F := Ideal) (m ((c.tc : Thread nD τ).loc main_arg0)) (W8 m ρ c (Proc.devRef .tc main_v47))) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) := by
  refine (W10_arr m ρ c 6).trans ?_
  refine (final1 (V9 m ρ) c).trans ?_
  dsimp only [V9]
  rw [in1_v60 m ρ c, in1_arg7 m ρ c, in1_arg8 m ρ c, in1_arg9 m ρ c, in1_arg2 m ρ c, in1_v61 m ρ c]
  exact (hiddenW_widen _ _ _ _ _ _ _).trans (hid_eq _ _ _ _ _ _).symm

/-- The last launch's output array is the last layer, over the padded weight and bias, of the aggregate of the second
    launch's output. -/
theorem out2 : W15 m ρ c (Proc.devRef .tc main_v78)
    = finalWide (agg (F := Ideal) (m ((c.tc : Thread nD τ).loc main_arg0)) (W10 m ρ c (Proc.devRef .tc main_v62))) (m ((c.tc : Thread nD τ).loc main_arg10)) (m ((c.tc : Thread nD τ).loc main_arg11)) (m ((c.tc : Thread nD τ).loc main_arg12))
        (pad S128x128 ![0, 0] ![64, 0] ![0, 0] (m ((c.tc : Thread nD τ).loc main_arg13)) (sitofp (F := Ideal) .f32 (constantI S_ 32 0#32)) pads_S64x128_S128x128_0640_000 h_S_)
        (pad S128 ![0] ![64] ![0] (m ((c.tc : Thread nD τ).loc main_arg14)) (sitofp (F := Ideal) .f32 (constantI S_ 32 0#32)) pads_S64_S128_0640 h_S_) := by
  refine (W15_arr m ρ c 6).trans ?_
  refine (final2 (V14 m ρ) c).trans ?_
  dsimp only [V14]
  rw [in2_v75 m ρ c, in2_arg10 m ρ c, in2_arg11 m ρ c, in2_arg12 m ρ c, in2_v76 m ρ c, in2_v77 m ρ c]

/-- THE RESULT: the kernel program's result array is the reference's closing stage of the same arguments. -/
theorem result : W16 m ρ c (Proc.devRef .tc main_v79)
    = val_main_v105 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [out_v79 m ρ c, out2 m ρ c]
  refine (final_of_wide _ _ _ _ _ _ _ _ _ _ _ _ _).trans ?_
  refine (fin_eq _ _ _ _ _ _).symm.trans ?_
  rw [out1 m ρ c, out0 m ρ c, v105_eq, v91_eq, v78_eq, v68_eq, v55_eq]

end Cert.KernelIdeal.ValueOf

end
-- ==== Proof.lean ====
/- The proof of `Cert.Claim` for a three-layer graph convolution: per layer the neighbourhood aggregate (gather the source
   rows, scale each edge by the symmetric degree normalisation, add into the destination rows), an affine map against the
   transposed weight plus two bias rows, the maximum with zero and, for the two hidden layers, the input feature kept where
   the mask holds; then an affine output map. The kernel program runs the three affine-and-nonlinear parts as launches over
   blocks of 10000 rows and everything else as the reference's own host text.
   Frames: the two kernel programs' are the generated frame certificates; the reference's is its run with the result
   dropped. `preserves` is `True` (the idealization rewrote nothing). `algebraic`: the kernel program's run with its
   result named at the last boundary's contents (Proof/KernelRun.lean), that content as the reference's closing stage of
   the same arguments (Proof/KernelValue.lean, over the launches' block theorems, the host side read at each launch's
   entry, and the layer equations), and the reference's run read back to the same stage. Every equation is structural:
   the two programs compute the same sums over the same index sets, so no input's finiteness is used. -/
import proofs.«430065_j90254442758730_3_alg».proof.Defs
import proofs.«430065_j90254442758730_3_alg».proof.Proof.Gen.Kernel
import proofs.«430065_j90254442758730_3_alg».proof.Proof.Gen.Kernel.Skeleton
import proofs.«430065_j90254442758730_3_alg».proof.Proof.Gen.Kernel.Launch
import proofs.«430065_j90254442758730_3_alg».proof.Proof.Gen.Kernel.Points
import proofs.«430065_j90254442758730_3_alg».proof.Proof.Gen.Kernel.Frame
import proofs.«430065_j90254442758730_3_alg».proof.Proof.Gen.KernelIdeal
import proofs.«430065_j90254442758730_3_alg».proof.Proof.Gen.KernelIdeal.Skeleton
import proofs.«430065_j90254442758730_3_alg».proof.Proof.Gen.KernelIdeal.Launch
import proofs.«430065_j90254442758730_3_alg».proof.Proof.Gen.KernelIdeal.Points
import proofs.«430065_j90254442758730_3_alg».proof.Proof.Gen.KernelIdeal.Frame
import proofs.«430065_j90254442758730_3_alg».proof.Proof.Gen.ReferenceIdeal
import proofs.«430065_j90254442758730_3_alg».proof.Proof.Gen.Pre_finite_inputs
import proofs.«430065_j90254442758730_3_alg».proof.Proof.KernelRun
import proofs.«430065_j90254442758730_3_alg».proof.Proof.KernelValue
import proofs.«430065_j90254442758730_3_alg».proof.Proof.RefRun
import proofs.«430065_j90254442758730_3_alg».proof.Proof.RefRead
import Idealize.ShloMosaic.Adequacy
import Idealize.ShloMosaic.Init

noncomputable section

namespace Cert.Proof

open Idealize.ShloMosaic Idealize.SL.Sem

/-- The word-level kernel program runs and leaves its arguments as launched: the generated frame certificate. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments as launched: the generated frame certificate. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- From memories that agree on the arguments both programs end with the same result array: the kernel program's is the
    reference's closing stage of its arguments, and so is the reference's, of equal arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W16 m ρ c (Proc.devRef .tc Cert.KernelIdeal.main_v79),
    Cert.KernelIdeal.Gen.run_main (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v105_eq, (hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact (Cert.KernelIdeal.ValueOf.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
